-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S800000x32 : Shape := ⟨2, ![800000, 32]⟩
abbrev S32x96 : Shape := ⟨2, ![32, 96]⟩
abbrev S96 : Shape := ⟨1, ![96]⟩
abbrev S96x96 : Shape := ⟨2, ![96, 96]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S32x96 : S_.BroadcastsInDim S32x96 (![] : Fin 0 → Fin S32x96.rank)
  reducesTo_S32x96_S_d0_1 : S32x96.ReducesTo [0, 1] S_
  bcast_S_S96 : S_.BroadcastsInDim S96 (![] : Fin 0 → Fin S96.rank)
  reducesTo_S96_S_d0 : S96.ReducesTo [0] S_
  bcast_S_S96x96 : S_.BroadcastsInDim S96x96 (![] : Fin 0 → Fin S96x96.rank)
  reducesTo_S96x96_S_d0_1 : S96x96.ReducesTo [0, 1] S_

variable [Facts]

def fn_part2 {F : FTy → Type} [FloatOps F] (main_arg8 : FVec F S96 .f32) (main_arg9 : FVec F S96 .f32) (main_arg10 : FVec F S96 .f32) (main_v33 : IVec S_ 1) : IVec S_ 1 :=
  let main_v34 : FVec F S96 .f32 := Host.absf main_arg8
  let main_cst_12 : FVec F S_ .f32 := constant S_ .f32 0x7F800000#32
  let main_v35 : FVec F S96 .f32 := broadcastInDim S96 ![] bcast_S_S96 main_cst_12
  let main_v36 : IVec S96 1 := cmpf .olt main_v34 main_v35
  let main_c_13 : IVec S_ 1 := constantI S_ 1 1#1
  let main_v37 : IVec S_ 1 := (fun x v => Host.reduce IntOp.andi x v reducesTo_S96_S_d0 h_S_) main_v36 main_c_13
  let main_v38 : IVec S_ 1 := andi main_v33 main_v37
  let main_v39 : FVec F S96 .f32 := Host.absf main_arg9
  let main_cst_14 : FVec F S_ .f32 := constant S_ .f32 0x7F800000#32
  let main_v40 : FVec F S96 .f32 := broadcastInDim S96 ![] bcast_S_S96 main_cst_14
  let main_v41 : IVec S96 1 := cmpf .olt main_v39 main_v40
  let main_c_15 : IVec S_ 1 := constantI S_ 1 1#1
  let main_v42 : IVec S_ 1 := (fun x v => Host.reduce IntOp.andi x v reducesTo_S96_S_d0 h_S_) main_v41 main_c_15
  let main_v43 : IVec S_ 1 := andi main_v38 main_v42
  let main_v44 : FVec F S96 .f32 := Host.absf main_arg10
  let main_cst_16 : FVec F S_ .f32 := constant S_ .f32 0x7F800000#32
  let main_v45 : FVec F S96 .f32 := broadcastInDim S96 ![] bcast_S_S96 main_cst_16
  let main_v46 : IVec S96 1 := cmpf .olt main_v44 main_v45
  let main_c_17 : IVec S_ 1 := constantI S_ 1 1#1
  let main_v47 : IVec S_ 1 := (fun x v => Host.reduce IntOp.andi x v reducesTo_S96_S_d0 h_S_) main_v46 main_c_17
  let main_v48 : IVec S_ 1 := andi main_v43 main_v47
  main_v48

def fn_part1 {F : FTy → Type} [FloatOps F] (main_arg5 : FVec F S96x96 .f32) (main_arg6 : FVec F S96 .f32) (main_arg7 : FVec F S96x96 .f32) (main_arg8 : FVec F S96 .f32) (main_arg9 : FVec F S96 .f32) (main_arg10 : FVec F S96 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96x96 .f32 := Host.absf main_arg5
  let main_cst_6 : FVec F S_ .f32 := constant S_ .f32 0x7F800000#32
  let main_v20 : FVec F S96x96 .f32 := broadcastInDim S96x96 ![] bcast_S_S96x96 main_cst_6
  let main_v21 : IVec S96x96 1 := cmpf .olt main_v19 main_v20
  let main_c_7 : IVec S_ 1 := constantI S_ 1 1#1
  let main_v22 : IVec S_ 1 := (fun x v => Host.reduce IntOp.andi x v reducesTo_S96x96_S_d0_1 h_S_) main_v21 main_c_7
  let main_v23 : IVec S_ 1 := andi main_v18 main_v22
  let main_v24 : FVec F S96 .f32 := Host.absf main_arg6
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S96x96 .f32 := Host.absf main_arg7
  let main_cst_10 : FVec F S_ .f32 := constant S_ .f32 0x7F800000#32
  let main_v30 : FVec F S96x96 .f32 := broadcastInDim S96x96 ![] bcast_S_S96x96 main_cst_10
  let main_v31 : IVec S96x96 1 := cmpf .olt main_v29 main_v30
  let main_c_11 : IVec S_ 1 := constantI S_ 1 1#1
  let main_v32 : IVec S_ 1 := (fun x v => Host.reduce IntOp.andi x v reducesTo_S96x96_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x96 .f32) (main_arg1 : IVec S2x800000 32) (main_arg2 : FVec F S800000x32 .f32) (main_arg3 : FVec F S32x96 .f32) (main_arg4 : FVec F S96 .f32) (main_arg5 : FVec F S96x96 .f32) (main_arg6 : FVec F S96 .f32) (main_arg7 : FVec F S96x96 .f32) (main_arg8 : FVec F S96 .f32) (main_arg9 : FVec F S96 .f32) (main_arg10 : FVec F S96 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S800000x32 .f32 := Host.absf main_arg2
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S32x96 .f32 := Host.absf main_arg3
  let main_cst_2 : FVec F S_ .f32 := constant S_ .f32 0x7F800000#32
  let main_v10 : FVec F S32x96 .f32 := broadcastInDim S32x96 ![] bcast_S_S32x96 main_cst_2
  let main_v11 : IVec S32x96 1 := cmpf .olt main_v9 main_v10
  let main_c_3 : IVec S_ 1 := constantI S_ 1 1#1
  let main_v12 : IVec S_ 1 := (fun x v => Host.reduce IntOp.andi x v reducesTo_S32x96_S_d0_1 h_S_) main_v11 main_c_3
  let main_v13 : IVec S_ 1 := andi main_v8 main_v12
  let main_v14 : FVec F S96 .f32 := Host.absf main_arg4
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg5 main_arg6 main_arg7 main_arg8 main_arg9 main_arg10 main_v13 main_v16
-- ==== Kernel.lean ====
abbrev S50000x96 : Shape := ⟨2, ![50000, 96]⟩
abbrev S2x800000 : Shape := ⟨2, ![2, 800000]⟩
abbrev S800000x32 : Shape := ⟨2, ![800000, 32]⟩
abbrev S32x96 : Shape := ⟨2, ![32, 96]⟩
abbrev S96 : Shape := ⟨1, ![96]⟩
abbrev S96x96 : Shape := ⟨2, ![96, 96]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S1x96 : Shape := ⟨2, ![1, 96]⟩
abbrev S4000x96 : Shape := ⟨2, ![4000, 96]⟩
abbrev S4000x32 : Shape := ⟨2, ![4000, 32]⟩
abbrev S5000x96 : Shape := ⟨2, ![5000, 96]⟩

abbrev nBuf : Space → Nat
  | .hbm => 55
  | .vmem => 26
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S800000x32, .f32⟩
  | .hbm, ⟨3, _⟩ => ⟨S32x96, .f32⟩
  | .hbm, ⟨4, _⟩ => ⟨S96, .f32⟩
  | .hbm, ⟨5, _⟩ => ⟨S96x96, .f32⟩
  | .hbm, ⟨6, _⟩ => ⟨S96, .f32⟩
  | .hbm, ⟨7, _⟩ => ⟨S96x96, .f32⟩
  | .hbm, ⟨8, _⟩ => ⟨S96, .f32⟩
  | .hbm, ⟨9, _⟩ => ⟨S96, .f32⟩
  | .hbm, ⟨10, _⟩ => ⟨S96, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x96, .f32⟩
  | .hbm, ⟨24, _⟩ => ⟨S32x96, .bf16⟩
  | .hbm, ⟨25, _⟩ => ⟨S1x96, .f32⟩
  | .hbm, ⟨26, _⟩ => ⟨S800000x96, .f32⟩
  | .hbm, ⟨27, _⟩ => ⟨S_, .f32⟩
  | .hbm, ⟨28, _⟩ => ⟨S50000x96, .f32⟩
  | .hbm, ⟨29, _⟩ => ⟨S800000x1, .i32⟩
  | .hbm, ⟨30, _⟩ => ⟨S50000x96, .f32⟩
  | .hbm, ⟨31, _⟩ => ⟨S96x96, .bf16⟩
  | .hbm, ⟨32, _⟩ => ⟨S96x96, .bf16⟩
  | .hbm, ⟨33, _⟩ => ⟨S1x96, .f32⟩
  | .hbm, ⟨34, _⟩ => ⟨S1x96, .f32⟩
  | .hbm, ⟨35, _⟩ => ⟨S50000x96, .f32⟩
  | .hbm, ⟨36, _⟩ => ⟨S_, .f32⟩
  | .hbm, ⟨37, _⟩ => ⟨S96, .f32⟩
  | .hbm, ⟨38, _⟩ => ⟨S_, .f32⟩
  | .hbm, ⟨39, _⟩ => ⟨S96, .f32⟩
  | .hbm, ⟨40, _⟩ => ⟨S96, .f32⟩
  | .hbm, ⟨41, _⟩ => ⟨S1x96, .f32⟩
  | .hbm, ⟨42, _⟩ => ⟨S50000x96, .f32⟩
  | .hbm, ⟨43, _⟩ => ⟨S50000x96, .f32⟩
  | .hbm, ⟨44, _⟩ => ⟨S50000x96, .f32⟩
  | .hbm, ⟨45, _⟩ => ⟨S_, .f32⟩
  | .hbm, ⟨46, _⟩ => ⟨S96, .f32⟩
  | .hbm, ⟨47, _⟩ => ⟨S_, .f32⟩
  | .hbm, ⟨48, _⟩ => ⟨S96, .f32⟩
  | .hbm, ⟨49, _⟩ => ⟨S96, .f32⟩
  | .hbm, ⟨50, _⟩ => ⟨S1x96, .f32⟩
  | .hbm, ⟨51, _⟩ => ⟨S1x96, .f32⟩
  | .hbm, ⟨52, _⟩ => ⟨S1x96, .f32⟩
  | .hbm, ⟨53, _⟩ => ⟨S1x96, .f32⟩
  | .hbm, ⟨54, _⟩ => ⟨S50000x96, .f32⟩
  | .local _ .vmem, ⟨0, _⟩ => ⟨S4000x96, .f32⟩
  | .local _ .vmem, ⟨1, _⟩ => ⟨S4000x96, .f32⟩
  | .local _ .vmem, ⟨2, _⟩ => ⟨S4000x32, .f32⟩
  | .local _ .vmem, ⟨3, _⟩ => ⟨S4000x32, .f32⟩
  | .local _ .vmem, ⟨4, _⟩ => ⟨S32x96, .bf16⟩
  | .local _ .vmem, ⟨5, _⟩ => ⟨S1x96, .f32⟩
  | .local _ .vmem, ⟨6, _⟩ => ⟨S4000x96, .f32⟩
  | .local _ .vmem, ⟨7, _⟩ => ⟨S4000x96, .f32⟩
  | .local _ .vmem, ⟨8, _⟩ => ⟨S5000x96, .f32⟩
  | .local _ .vmem, ⟨9, _⟩ => ⟨S5000x96, .f32⟩
  | .local _ .vmem, ⟨10, _⟩ => ⟨S5000x96, .f32⟩
  | .local _ .vmem, ⟨11, _⟩ => ⟨S5000x96, .f32⟩
  | .local _ .vmem, ⟨12, _⟩ => ⟨S96x96, .bf16⟩
  | .local _ .vmem, ⟨13, _⟩ => ⟨S1x96, .f32⟩
  | .local _ .vmem, ⟨14, _⟩ => ⟨S96x96, .bf16⟩
  | .local _ .vmem, ⟨15, _⟩ => ⟨S1x96, .f32⟩
  | .local _ .vmem, ⟨16, _⟩ => ⟨S5000x96, .f32⟩
  | .local _ .vmem, ⟨17, _⟩ => ⟨S5000x96, .f32⟩
  | .local _ .vmem, ⟨18, _⟩ => ⟨S5000x96, .f32⟩
  | .local _ .vmem, ⟨19, _⟩ => ⟨S5000x96, .f32⟩
  | .local _ .vmem, ⟨20, _⟩ => ⟨S1x96, .f32⟩
  | .local _ .vmem, ⟨21, _⟩ => ⟨S1x96, .f32⟩
  | .local _ .vmem, ⟨22, _⟩ => ⟨S1x96, .f32⟩
  | .local _ .vmem, ⟨23, _⟩ => ⟨S1x96, .f32⟩
  | .local _ .vmem, ⟨24, _⟩ => ⟨S5000x96, .f32⟩
  | .local _ .vmem, ⟨25, _⟩ => ⟨S5000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_1 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x96 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S96x96 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S96x96 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x96 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x96 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x96 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x96 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x96 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bitsLt_bf16_f32 : FTy.bits .bf16 < FTy.bits .f32
  shapeCasts_S96_S1x96 : S96.ShapeCasts S1x96
  inb_S4000x32_S4000x32_0_0 : ∀ a, (![0, 0] : Fin 2 → Nat) a + S4000x32.size a ≤ S4000x32.size a
  h_S4000x32 : 0 < S4000x32.numel
  inb_S32x96_S32x96_0_0 : ∀ a, (![0, 0] : Fin 2 → Nat) a + S32x96.size a ≤ S32x96.size a
  h_S32x96 : 0 < S32x96.numel
  shapeCasts_S32x96_S32x96 : S32x96.ShapeCasts S32x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S4000x96 : S1x96.Broadcasts S4000x96
  inb_S4000x96_S4000x96_0_0 : ∀ a, (![0, 0] : Fin 2 → Nat) a + S4000x96.size a ≤ S4000x96.size a
  h_S4000x96 : 0 < S4000x96.numel
  shapeCasts_S4000x96_S4000x96 : S4000x96.ShapeCasts S4000x96
  bcast_S_S50000x96 : S_.BroadcastsInDim S50000x96 (![] : Fin 0 → Fin S50000x96.rank)
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  inb_S96x96_S96x96_0_0 : ∀ a, (![0, 0] : Fin 2 → Nat) a + S96x96.size a ≤ S96x96.size a
  h_S96x96 : 0 < S96x96.numel
  shapeCasts_S96x96_S96x96 : S96x96.ShapeCasts S96x96
  broadcasts_S1x96_S5000x96 : S1x96.Broadcasts S5000x96
  reducesTo_S50000x96_S96_d0 : S50000x96.ReducesTo [0] S96
  h_S_ : 0 < S_.numel
  bcast_S_S96 : S_.BroadcastsInDim S96 (![] : Fin 0 → Fin S96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  gather_S50000x96_S800000x1_S800000x96_1_0_n_n_0_1_196_wf : GatherDims.WF S50000x96 S800000x1 S800000x96 [1] [0] [] [0] [] 1 ![1, 96]
  dot_S4000x32_S32x96_S4000x96_1_0_0_1_n_n_wf : DotDims.WF S4000x32 S32x96 S4000x96 [1] [0] [0] [1] [] []
  scatter_S50000x96_S800000x1_S800000x96_1_0_0_1_wf : ScatterDims.WF S50000x96 S800000x1 S800000x96 [1] [0] [0] 1
  dot_S5000x96_S96x96_S5000x96_1_0_0_1_n_n_wf : DotDims.WF S5000x96 S96x96 S5000x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x96.size a ≤ S800000x96.size a
  hwx0_0 : ∀ i : grid0.Coords, EltTy.bits .f32 = 32 ∨ (Rect.block (s := S800000x96) S4000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x32.size a ≤ S800000x32.size a
  hwx0_1 : ∀ i : grid0.Coords, EltTy.bits .f32 = 32 ∨ (Rect.block (s := S800000x32) S4000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x96.size a ≤ S32x96.size a
  hwx0_2 : ∀ i : grid0.Coords, EltTy.bits .bf16 = 32 ∨ (Rect.block (s := S32x96) S32x96.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x96.size a ≤ S1x96.size a
  hwx0_3 : ∀ i : grid0.Coords, EltTy.bits .f32 = 32 ∨ (Rect.block (s := S1x96) S1x96.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x96.size a ≤ S800000x96.size a
  hwx0_4 : ∀ i : grid0.Coords, EltTy.bits .f32 = 32 ∨ (Rect.block (s := S800000x96) S4000x96.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x96.size a ≤ S50000x96.size a
  hwx1_1 : ∀ i : grid1.Coords, EltTy.bits .f32 = 32 ∨ (Rect.block (s := S50000x96) S5000x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x96.size a ≤ S96x96.size a
  hwx1_2 : ∀ i : grid1.Coords, EltTy.bits .bf16 = 32 ∨ (Rect.block (s := S96x96) S96x96.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x96.size a ≤ S1x96.size a
  hwx1_3 : ∀ i : grid1.Coords, EltTy.bits .f32 = 32 ∨ (Rect.block (s := S1x96) S1x96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S96x96.size a ≤ S96x96.size a
  hwx1_4 : ∀ i : grid1.Coords, EltTy.bits .bf16 = 32 ∨ (Rect.block (s := S96x96) S96x96.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x96.size a ≤ S1x96.size a
  hwx1_5 : ∀ i : grid1.Coords, EltTy.bits .f32 = 32 ∨ (Rect.block (s := S1x96) S1x96.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x96.size a ≤ S50000x96.size a
  hwx1_6 : ∀ i : grid1.Coords, EltTy.bits .f32 = 32 ∨ (Rect.block (s := S50000x96) S5000x96.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x96.size a ≤ S1x96.size a
  hwx2_1 : ∀ i : grid2.Coords, EltTy.bits .f32 = 32 ∨ (Rect.block (s := S1x96) S1x96.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x96.size a ≤ S1x96.size a
  hwx2_2 : ∀ i : grid2.Coords, EltTy.bits .f32 = 32 ∨ (Rect.block (s := S1x96) S1x96.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x96.size a ≤ S1x96.size a
  hwx2_3 : ∀ i : grid2.Coords, EltTy.bits .f32 = 32 ∨ (Rect.block (s := S1x96) S1x96.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x96.size a ≤ S1x96.size a
  hwx2_4 : ∀ i : grid2.Coords, EltTy.bits .f32 = 32 ∨ (Rect.block (s := S1x96) S1x96.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x96.size a ≤ S50000x96.size a
  hwx2_5 : ∀ i : grid2.Coords, EltTy.bits .f32 = 32 ∨ (Rect.block (s := S50000x96) S5000x96.size (cc2_transform_5 i) (hinb2_5 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def dot_S4000x32_S32x96_S4000x96_1_0_0_1_n_n : DotDims S4000x32 S32x96 S4000x96 where
  lhsContracting := [1]
  rhsContracting := [0]
  lhsNonContracting := [0]
  rhsNonContracting := [1]
  lhsBatch := []
  rhsBatch := []
  wf := dot_S4000x32_S32x96_S4000x96_1_0_0_1_n_n_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf

abbrev win0_0 : Pipeline.Window sig grid0 :=
  Pipeline.Window.ofSpec (Memref.whole main_v10) S4000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S32x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S4000x96.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S96x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S96x96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S1x96.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S5000x96.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v21) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S1x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v33) S1x96.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v34) S1x96.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v35) S1x96.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36) S5000x96.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S800000x32 : Shape := ⟨2, ![800000, 32]⟩
abbrev S32x96 : Shape := ⟨2, ![32, 96]⟩
abbrev S96 : Shape := ⟨1, ![96]⟩
abbrev S96x96 : Shape := ⟨2, ![96, 96]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S1x96 : Shape := ⟨2, ![1, 96]⟩

abbrev nBuf : Space → Nat
  | .hbm => 81
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S800000x32, .f32⟩
  | .hbm, ⟨3, _⟩ => ⟨S32x96, .f32⟩
  | .hbm, ⟨4, _⟩ => ⟨S96, .f32⟩
  | .hbm, ⟨5, _⟩ => ⟨S96x96, .f32⟩
  | .hbm, ⟨6, _⟩ => ⟨S96, .f32⟩
  | .hbm, ⟨7, _⟩ => ⟨S96x96, .f32⟩
  | .hbm, ⟨8, _⟩ => ⟨S96, .f32⟩
  | .hbm, ⟨9, _⟩ => ⟨S96, .f32⟩
  | .hbm, ⟨10, _⟩ => ⟨S96, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x96, .f32⟩
  | .hbm, ⟨24, _⟩ => ⟨S800000x96, .f32⟩
  | .hbm, ⟨25, _⟩ => ⟨S800000x96, .f32⟩
  | .hbm, ⟨26, _⟩ => ⟨S1x96, .f32⟩
  | .hbm, ⟨27, _⟩ => ⟨S800000x96, .f32⟩
  | .hbm, ⟨28, _⟩ => ⟨S800000x96, .f32⟩
  | .hbm, ⟨29, _⟩ => ⟨S_, .f32⟩
  | .hbm, ⟨30, _⟩ => ⟨S800000x96, .f32⟩
  | .hbm, ⟨31, _⟩ => ⟨S800000x96, .f32⟩
  | .hbm, ⟨32, _⟩ => ⟨S_, .f32⟩
  | .hbm, ⟨33, _⟩ => ⟨S50000x96, .f32⟩
  | .hbm, ⟨34, _⟩ => ⟨S800000x1, .i32⟩
  | .hbm, ⟨35, _⟩ => ⟨S50000x96, .f32⟩
  | .hbm, ⟨36, _⟩ => ⟨S50000x96, .f32⟩
  | .hbm, ⟨37, _⟩ => ⟨S50000x96, .f32⟩
  | .hbm, ⟨38, _⟩ => ⟨S1x96, .f32⟩
  | .hbm, ⟨39, _⟩ => ⟨S50000x96, .f32⟩
  | .hbm, ⟨40, _⟩ => ⟨S50000x96, .f32⟩
  | .hbm, ⟨41, _⟩ => ⟨S_, .f32⟩
  | .hbm, ⟨42, _⟩ => ⟨S50000x96, .f32⟩
  | .hbm, ⟨43, _⟩ => ⟨S50000x96, .f32⟩
  | .hbm, ⟨44, _⟩ => ⟨S50000x96, .f32⟩
  | .hbm, ⟨45, _⟩ => ⟨S1x96, .f32⟩
  | .hbm, ⟨46, _⟩ => ⟨S50000x96, .f32⟩
  | .hbm, ⟨47, _⟩ => ⟨S50000x96, .f32⟩
  | .hbm, ⟨48, _⟩ => ⟨S_, .f32⟩
  | .hbm, ⟨49, _⟩ => ⟨S96, .f32⟩
  | .hbm, ⟨50, _⟩ => ⟨S_, .f32⟩
  | .hbm, ⟨51, _⟩ => ⟨S96, .f32⟩
  | .hbm, ⟨52, _⟩ => ⟨S96, .f32⟩
  | .hbm, ⟨53, _⟩ => ⟨S1x96, .f32⟩
  | .hbm, ⟨54, _⟩ => ⟨S50000x96, .f32⟩
  | .hbm, ⟨55, _⟩ => ⟨S50000x96, .f32⟩
  | .hbm, ⟨56, _⟩ => ⟨S50000x96, .f32⟩
  | .hbm, ⟨57, _⟩ => ⟨S_, .f32⟩
  | .hbm, ⟨58, _⟩ => ⟨S96, .f32⟩
  | .hbm, ⟨59, _⟩ => ⟨S_, .f32⟩
  | .hbm, ⟨60, _⟩ => ⟨S96, .f32⟩
  | .hbm, ⟨61, _⟩ => ⟨S96, .f32⟩
  | .hbm, ⟨62, _⟩ => ⟨S1x96, .f32⟩
  | .hbm, ⟨63, _⟩ => ⟨S50000x96, .f32⟩
  | .hbm, ⟨64, _⟩ => ⟨S50000x96, .f32⟩
  | .hbm, ⟨65, _⟩ => ⟨S_, .f32⟩
  | .hbm, ⟨66, _⟩ => ⟨S96, .f32⟩
  | .hbm, ⟨67, _⟩ => ⟨S96, .f32⟩
  | .hbm, ⟨68, _⟩ => ⟨S96, .f32⟩
  | .hbm, ⟨69, _⟩ => ⟨S1x96, .f32⟩
  | .hbm, ⟨70, _⟩ => ⟨S50000x96, .f32⟩
  | .hbm, ⟨71, _⟩ => ⟨S50000x96, .f32⟩
  | .hbm, ⟨72, _⟩ => ⟨S1x96, .f32⟩
  | .hbm, ⟨73, _⟩ => ⟨S50000x96, .f32⟩
  | .hbm, ⟨74, _⟩ => ⟨S50000x96, .f32⟩
  | .hbm, ⟨75, _⟩ => ⟨S1x96, .f32⟩
  | .hbm, ⟨76, _⟩ => ⟨S50000x96, .f32⟩
  | .hbm, ⟨77, _⟩ => ⟨S50000x96, .f32⟩
  | .hbm, ⟨78, _⟩ => ⟨S_, .f32⟩
  | .hbm, ⟨79, _⟩ => ⟨S50000x96, .f32⟩
  | .hbm, ⟨80, _⟩ => ⟨S50000x96, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call0_cst : Ref sig .tc := ⟨.hbm, 29, rfl⟩
abbrev main_call0_v0 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_call1_cst : Ref sig .tc := ⟨.hbm, 41, rfl⟩
abbrev main_call1_v0 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_1 : Ref sig .tc := ⟨.hbm, 48, rfl⟩
abbrev main_v30 : Ref sig .tc := ⟨.hbm, 49, rfl⟩
abbrev main_cst_2 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_3 : Ref sig .tc := ⟨.hbm, 57, rfl⟩
abbrev main_v37 : Ref sig .tc := ⟨.hbm, 58, rfl⟩
abbrev main_cst_4 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_5 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_call2_cst : Ref sig .tc := ⟨.hbm, 78, rfl⟩
abbrev main_call2_v0 : Ref sig .tc := ⟨.hbm, 79, rfl⟩
abbrev main_v55 : Ref sig .tc := ⟨.hbm, 80, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S96_S1x96_1 : S96.BroadcastsInDim S1x96 (![1] : Fin 1 → Fin S1x96.rank)
  bcast_S1x96_S800000x96_0_1 : S1x96.BroadcastsInDim S800000x96 (![0, 1] : Fin 2 → Fin S800000x96.rank)
  bcast_S_S800000x96 : S_.BroadcastsInDim S800000x96 (![] : Fin 0 → Fin S800000x96.rank)
  bcast_S_S50000x96 : S_.BroadcastsInDim S50000x96 (![] : Fin 0 → Fin S50000x96.rank)
  bcast_S1x96_S50000x96_0_1 : S1x96.BroadcastsInDim S50000x96 (![0, 1] : Fin 2 → Fin S50000x96.rank)
  reducesTo_S50000x96_S96_d0 : S50000x96.ReducesTo [0] S96
  h_S_ : 0 < S_.numel
  bcast_S_S96 : S_.BroadcastsInDim S96 (![] : Fin 0 → Fin S96.rank)
  gather_S50000x96_S800000x1_S800000x96_1_0_n_n_0_1_196_wf : GatherDims.WF S50000x96 S800000x1 S800000x96 [1] [0] [] [0] [] 1 ![1, 96]
  dot_S800000x32_S32x96_S800000x96_1_0_0_1_n_n_wf : DotDims.WF S800000x32 S32x96 S800000x96 [1] [0] [0] [1] [] []
  scatter_S50000x96_S800000x1_S800000x96_1_0_0_1_wf : ScatterDims.WF S50000x96 S800000x1 S800000x96 [1] [0] [0] 1
  dot_S50000x96_S96x96_S50000x96_1_0_0_1_n_n_wf : DotDims.WF S50000x96 S96x96 S50000x96 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def dot_S800000x32_S32x96_S800000x96_1_0_0_1_n_n : DotDims S800000x32 S32x96 S800000x96 where
  lhsContracting := [1]
  rhsContracting := [0]
  lhsNonContracting := [0]
  rhsNonContracting := [1]
  lhsBatch := []
  rhsBatch := []
  wf := dot_S800000x32_S32x96_S800000x96_1_0_0_1_n_n_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf

class Facts : Prop extends Facts₀ where

variable [Facts]
-- ==== Proof.Spec.lean ====
/-
  The three dense stages of the graph block, each as ONE function of whole arrays over the extended reals, index by index.

  * `message`: per edge e and feature j,  max (xs[e,j] + ((Σ_k ea[e,k] · we[k,j]) + be[0,j]), 0).
  * `mlp`: per node n and feature j,  (Σ_k max ((Σ_l (x[n,l] + ag[n,l]) · w1[l,k]) + b1[0,k], 0) · w2[k,j]) + b2[0,j].
  * `bnorm`: per node n and feature j,  max ((h[n,j] − mean[0,j]) · rsqrt (var[0,j] + ε) · gamma[0,j] + beta[0,j], 0).

  Row vectors are carried as 1 × 96 arrays; ε and 0 are kept as their binary words, which both programs spell alike.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- An r × c array of extended reals. -/
abbrev Mat (r c : Nat) : Type := FVec Ideal (⟨2, ![r, c]⟩ : Shape) .f32

/-- The zero word, as both programs write the floor of their rectifiers. -/
abbrev zeroW : EReal := Ideal.ofBits .f32 0x00000000#32

/-- The variance offset, as both programs write it. -/
abbrev epsW : EReal := Ideal.ofBits .f32 0x3727C5AC#32

/-- Edge messages: the source row plus the projected edge attributes plus the bias, rectified. -/
def message (xs : Mat 800000 96) (ea : Mat 800000 32) (we : Mat 32 96) (be : Mat 1 96) : Mat 800000 96 :=
  fun i => max (xs i + ((∑ k : Fin 32, ea (ix2 (i 0) k) * we (ix2 k (i 1))) + be (ix2 (0 : Fin 1) (i 1)))) zeroW

/-- The hidden layer of the node network at node row `n`, feature `k`. -/
def hidden (x ag : Mat 50000 96) (w1 : Mat 96 96) (b1 : Mat 1 96) (n : Fin 50000) (k : Fin 96) : EReal :=
  max ((∑ l : Fin 96, (x (ix2 n l) + ag (ix2 n l)) * w1 (ix2 l k)) + b1 (ix2 (0 : Fin 1) k)) zeroW

/-- The node network: two affine layers with a rectifier between, applied to node features plus aggregated messages. -/
def mlp (x ag : Mat 50000 96) (w1 : Mat 96 96) (b1 : Mat 1 96) (w2 : Mat 96 96) (b2 : Mat 1 96) : Mat 50000 96 :=
  fun i => (∑ k : Fin 96, hidden x ag w1 b1 (i 0) k * w2 (ix2 k (i 1))) + b2 (ix2 (0 : Fin 1) (i 1))

/-- Normalisation by given column statistics, affine map, rectifier. -/
def bnorm (h : Mat 50000 96) (mean var gamma beta : Mat 1 96) : Mat 50000 96 :=
  fun i => max (((h i - mean (ix2 (0 : Fin 1) (i 1))) * Ideal.rsqrt (var (ix2 (0 : Fin 1) (i 1)) + epsW))
      * gamma (ix2 (0 : Fin 1) (i 1)) + beta (ix2 (0 : Fin 1) (i 1))) zeroW

end Cert.Spec

end
-- ==== Proof.Message.lean ====
/-
  The first pallas_call (edge messages), read as a value. At the extended reals a grid point's block of the result is
  the restriction of `Spec.message` of the arrays the region finds: entry (p, q) of a block depends on row p of the
  source-row block and of the edge-attribute block, on column q of the whole projection matrix and of the bias row.
  The 200 row blocks of 4000 rows tile the 800000 rows, so the array the region leaves IS `Spec.message`.
-/
import proofs.«161654_j68332929679679_1_alg».proof.Proof.Gen.KernelIdeal.Frame
import proofs.«161654_j68332929679679_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Message

open Cert.KernelIdeal Cert.KernelIdeal.Gen Idealize.ShloMosaic Idealize.ShloMosaic.TcCoe Idealize.ShloMosaic.ValueIdx Idealize.SL.Sem
open Idealize.ShloMosaic.Pipeline (Dat Cfg Window)

/-! ## The block product at an entry: a sum over the 32 edge features -/

theorem lhs_row (i : S4000x96.Idx) (q : dot_S4000x32_S32x96_S4000x96_1_0_0_1_n_n.contr.Idx) :
    (dot_S4000x32_S32x96_S4000x96_1_0_0_1_n_n.lhsIdx i q 0).val = (i 0).val := by
  unfold DotDims.lhsIdx
  rw [dif_neg (show ¬(0 : Fin S4000x32.rank) ∈ dot_S4000x32_S32x96_S4000x96_1_0_0_1_n_n.lhsBatch by decide), dif_pos (show (0 : Fin S4000x32.rank) ∈ dot_S4000x32_S32x96_S4000x96_1_0_0_1_n_n.lhsNonContracting by decide)]
  rfl
theorem lhs_feat (i : S4000x96.Idx) (q : dot_S4000x32_S32x96_S4000x96_1_0_0_1_n_n.contr.Idx) :
    (dot_S4000x32_S32x96_S4000x96_1_0_0_1_n_n.lhsIdx i q 1).val = (q ⟨0, by decide⟩).val :=
  dot_S4000x32_S32x96_S4000x96_1_0_0_1_n_n.lhsIdx_val_of_single rfl i q
theorem rhs_feat (i : S4000x96.Idx) (q : dot_S4000x32_S32x96_S4000x96_1_0_0_1_n_n.contr.Idx) :
    (dot_S4000x32_S32x96_S4000x96_1_0_0_1_n_n.rhsIdx i q 0).val = (q ⟨0, by decide⟩).val :=
  dot_S4000x32_S32x96_S4000x96_1_0_0_1_n_n.rhsIdx_val_of_single rfl i q
theorem rhs_col (i : S4000x96.Idx) (q : dot_S4000x32_S32x96_S4000x96_1_0_0_1_n_n.contr.Idx) :
    (dot_S4000x32_S32x96_S4000x96_1_0_0_1_n_n.rhsIdx i q 1).val = (i 1).val := by
  unfold DotDims.rhsIdx
  rw [dif_neg (show ¬(1 : Fin S32x96.rank) ∈ dot_S4000x32_S32x96_S4000x96_1_0_0_1_n_n.rhsBatch by decide), dif_pos (show (1 : Fin S32x96.rank) ∈ dot_S4000x32_S32x96_S4000x96_1_0_0_1_n_n.rhsNonContracting by decide)]
  rfl

/-- Entry (p, q) of the block product into a zero accumulator is Σ_k ea[p,k] · we[k,q]. -/
theorem product_apply (ea : FVec Ideal S4000x32 .bf16) (we : FVec Ideal S32x96 .bf16) (p : Fin 4000) (q : Fin 96) :
    matmul (F := Ideal) dot_S4000x32_S32x96_S4000x96_1_0_0_1_n_n none ea we (constant S4000x96 .f32 0x00000000#32) (ix2 p q)
      = ∑ k : Fin 32, ea (ix2 p k) * we (ix2 k q) := by
  simp only [matmul]
  rw [Ideal.matmul_constant_zero_apply, ← Equiv.sum_comp (contrEquiv1 dot_S4000x32_S32x96_S4000x96_1_0_0_1_n_n 32 rfl rfl).symm]
  refine Finset.sum_congr rfl fun k _ => ?_
  have hk := contrEquiv1_symm_val dot_S4000x32_S32x96_S4000x96_1_0_0_1_n_n 32 rfl rfl k
  have el : dot_S4000x32_S32x96_S4000x96_1_0_0_1_n_n.lhsIdx (ix2 p q) ((contrEquiv1 dot_S4000x32_S32x96_S4000x96_1_0_0_1_n_n 32 rfl rfl).symm k) = ix2 p k := funext fun a => Fin.ext (by
    match a with
    | ⟨0, _⟩ => exact lhs_row _ _
    | ⟨1, _⟩ => exact (lhs_feat _ _).trans hk)
  have er : dot_S4000x32_S32x96_S4000x96_1_0_0_1_n_n.rhsIdx (ix2 p q) ((contrEquiv1 dot_S4000x32_S32x96_S4000x96_1_0_0_1_n_n 32 rfl rfl).symm k) = ix2 k q := funext fun a => Fin.ext (by
    match a with
    | ⟨0, _⟩ => exact (rhs_feat _ _).trans hk
    | ⟨1, _⟩ => exact rhs_col _ _)
  rw [el, er]

/-! ## The body's stored value at an entry -/

/-- What the body stores at entry (p, q) of its block: the rectified sum of the source row's entry, the projected
    edge attributes and the bias. -/
theorem stored_apply (ea : Vec Ideal S4000x32 .f32) (we : Vec Ideal S32x96 .bf16) (be : Vec Ideal S1x96 .f32)
    (xs : Vec Ideal S4000x96 .f32) (p : Fin 4000) (q : Fin 96) :
    k0_pay1 (F := Ideal) ea we be xs (ix2 p q)
      = max (xs (ix2 p q) + ((∑ k : Fin 32, ea (ix2 p k) * we (ix2 k q)) + be (ix2 (0 : Fin 1) q))) Spec.zeroW := by
  unfold k0_pay1
  simp only [maximumf_apply, addf_apply, broadcast_apply, shapeCast_self]
  rw [product_apply, broadcastTo_1b_ab_apply]
  rfl

/-- The stored block as one function of the block's entry. -/
theorem stored_eq (ea : Vec Ideal S4000x32 .f32) (we : Vec Ideal S32x96 .bf16) (be : Vec Ideal S1x96 .f32)
    (xs : Vec Ideal S4000x96 .f32) :
    k0_pay1 (F := Ideal) ea we be xs
      = fun i => max (xs i + ((∑ k : Fin 32, ea (ix2 (i 0) k) * we (ix2 k (i 1))) + be (ix2 (0 : Fin 1) (i 1)))) Spec.zeroW := by
  funext i
  obtain ⟨p, q, rfl⟩ : ∃ (p : Fin 4000) (q : Fin 96), i = ix2 p q := ⟨i 0, i 1, eq_ix2 i⟩
  exact stored_apply ea we be xs p q

/-! ## From blocks to the array -/

section Region

variable (V : (c : Dev nD) → (b : Ref sig .tc) → Buf (Elt Ideal) ((c : Thread nD τ).loc b))

/-- The arrays the region finds, at their literal types: the gathered source rows, the edge attributes, the projection
    matrix and the bias row. -/
abbrev srcRows (c : Dev nD) : Spec.Mat 800000 96 := V c main_v10
abbrev edgeAttr (c : Dev nD) : Spec.Mat 800000 32 := V c main_arg2
abbrev projMat (c : Dev nD) : Spec.Mat 32 96 := V c main_v11
abbrev biasRow (c : Dev nD) : Spec.Mat 1 96 := V c main_v12

theorem origin : (![0, 0] : Fin 2 → Nat) = fun _ => 0 := funext fun a => by fin_cases a <;> rfl

/-- The printed index maps over the 200 grid points: the two row-blocked inputs and the output sit at block row `t`,
    the projection matrix and the bias row at block (0, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What grid point `t` writes back is block `t` of `Spec.message` of the arrays as the region finds them. -/
theorem flushed_eq (c : Dev nD) (t : Fin cfg0.N) :
    (dat0 V c).flushed 4 t = ((cfg0.win 4).blk t).view.read (Elt Ideal)
      (Spec.message (srcRows V c) (edgeAttr V c) (projMat V c) (biasRow V c)) := by
  show (cfg0.win 4).cut (grid0.coords t) ((dat0 V c).after 4 t) = _
  rw [after0_4]
  unfold out0_4
  rw [View.canon_unit_zero origin]
  simp only [View.ld_unit_zero (S := S4000x32) origin, View.ld_unit_zero (S := S32x96) origin,
    View.ld_unit_zero (S := S1x96) origin, View.ld_unit_zero (S := S4000x96) origin]
  obtain ⟨e00, e01, e10, e11, e20, e21, e30, e31, e40, e41⟩ := block_index t
  funext j
  refine (congrFun (stored_eq (iblk0 V c 1 t) (iblk0 V c 2 t) (iblk0 V c 3 t) (iblk0 V c 0 t)) j).trans ?_
  have h0 : ((cfg0.win 0).blk t).view.emb j = ((cfg0.win 4).blk t).view.emb j := by
    funext a; apply Fin.ext
    match a with
    | ⟨0, _⟩ => show win0_0.index t (0 : Fin 2) * 4000 + 1 * (j 0).val = win0_4.index t (0 : Fin 2) * 4000 + 1 * (j 0).val; omega
    | ⟨1, _⟩ => show win0_0.index t (1 : Fin 2) * 96 + 1 * (j 1).val = win0_4.index t (1 : Fin 2) * 96 + 1 * (j 1).val; omega
  have h1 : ∀ k : Fin 32, ((cfg0.win 1).blk t).view.emb (ix2 (j 0) k) = ix2 ((((cfg0.win 4).blk t).view.emb j) 0) k := by
    intro k; funext a; apply Fin.ext
    match a with
    | ⟨0, _⟩ => show win0_1.index t (0 : Fin 2) * 4000 + 1 * (j 0).val = win0_4.index t (0 : Fin 2) * 4000 + 1 * (j 0).val; omega
    | ⟨1, _⟩ => show win0_1.index t (1 : Fin 2) * 32 + 1 * k.val = k.val; omega
  have h2 : ∀ k : Fin 32, ((cfg0.win 2).blk t).view.emb (ix2 k (j 1)) = ix2 k ((((cfg0.win 4).blk t).view.emb j) 1) := by
    intro k; funext a; apply Fin.ext
    match a with
    | ⟨0, _⟩ => show win0_2.index t (0 : Fin 2) * 32 + 1 * k.val = k.val; omega
    | ⟨1, _⟩ => show win0_2.index t (1 : Fin 2) * 96 + 1 * (j 1).val = win0_4.index t (1 : Fin 2) * 96 + 1 * (j 1).val; omega
  have h3 : ((cfg0.win 3).blk t).view.emb (ix2 (0 : Fin 1) (j 1)) = ix2 (0 : Fin 1) ((((cfg0.win 4).blk t).view.emb j) 1) := by
    funext a; apply Fin.ext
    match a with
    | ⟨0, _⟩ => show win0_3.index t (0 : Fin 2) * 1 + 1 * 0 = 0; omega
    | ⟨1, _⟩ => show win0_3.index t (1 : Fin 2) * 96 + 1 * (j 1).val = win0_4.index t (1 : Fin 2) * 96 + 1 * (j 1).val; omega
  show max (srcRows V c (((cfg0.win 0).blk t).view.emb j)
        + ((∑ k : Fin 32, edgeAttr V c (((cfg0.win 1).blk t).view.emb (ix2 (j 0) k)) * projMat V c (((cfg0.win 2).blk t).view.emb (ix2 k (j 1))))
          + biasRow V c (((cfg0.win 3).blk t).view.emb (ix2 (0 : Fin 1) (j 1))))) Spec.zeroW
      = Spec.message (srcRows V c) (edgeAttr V c) (projMat V c) (biasRow V c) (((cfg0.win 4).blk t).view.emb j)
  rw [h0, h3]
  simp only [h1, h2]
  rfl

/-- An index of the result array lies in point `t`'s block iff each coordinate lies in the block's range on its axis. -/
theorem mem_block (t : Fin cfg0.N) (i : S800000x96.Idx) :
    i ∈ ((cfg0.win 4).blk t).view.set ↔ ∀ a : Fin 2, win0_4.index t a * S4000x96.size a ≤ (i a).val ∧ (i a).val < win0_4.index t a * S4000x96.size a + S4000x96.size a := by
  show i ∈ ((View.whole main_v13).slice (win0_4.rect t)).set ↔ _
  rw [View.set_slice_whole, Rect.mem_set_unit]
  exact Iff.rfl

/-- Every entry of the result array is written back by some point: row r by point r / 4000. -/
theorem cover (i : S800000x96.Idx) :
    ∃ t : Fin cfg0.N, (cfg0.win 4).flush t = true ∧ i ∈ ((cfg0.win 4).blk t).view.set := by
  have hi0 : (i 0).val < 800000 := (i 0).isLt
  have hi1 : (i 1).val < 96 := (i 1).isLt
  have hN : (i 0).val / 4000 < cfg0.N := by show _ < grid0.N; rw [N_0]; omega
  obtain ⟨-, -, -, -, -, -, -, -, e40, e41⟩ := block_index ⟨(i 0).val / 4000, hN⟩
  refine ⟨⟨(i 0).val / 4000, hN⟩, flush0_4 _, ?_⟩
  rw [mem_block]
  intro a
  match a with
  | ⟨0, _⟩ =>
    show win0_4.index ⟨(i 0).val / 4000, hN⟩ (0 : Fin 2) * 4000 ≤ (i 0).val ∧ (i 0).val < win0_4.index ⟨(i 0).val / 4000, hN⟩ (0 : Fin 2) * 4000 + 4000
    rw [e40]; show (i 0).val / 4000 * 4000 ≤ (i 0).val ∧ (i 0).val < (i 0).val / 4000 * 4000 + 4000; omega
  | ⟨1, _⟩ =>
    show win0_4.index ⟨(i 0).val / 4000, hN⟩ (1 : Fin 2) * 96 ≤ (i 1).val ∧ (i 1).val < win0_4.index ⟨(i 0).val / 4000, hN⟩ (1 : Fin 2) * 96 + 96
    rw [e41]; omega

/-- THE ARRAY the region leaves: `Spec.message` of the arrays it found. -/
theorem final (c : Dev nD) :
    (dat0 V c).arrAt 4 cfg0.N = Spec.message (srcRows V c) (edgeAttr V c) (projMat V c) (biasRow V c) :=
  (dat0 V c).arrAt_eq_of_cover 4 _ (fun t _ => flushed_eq V c t) cover

end Region

end Cert.KernelIdeal.Message

end
-- ==== Proof.Mlp.lean ====
/-
  The second pallas_call (the node network), read as a value. Entry (p, q) of a grid point's block depends on row p of
  the node-feature block and of the aggregated-message block, on the whole first weight matrix and bias row (the hidden
  row p), and on column q of the second weight matrix and bias row: two matrix products, each a sum over 96 features.
  The 10 row blocks of 5000 rows tile the 50000 rows, so the array the region leaves IS `Spec.mlp` of the arrays it found.
-/
import proofs.«161654_j68332929679679_1_alg».proof.Proof.Gen.KernelIdeal.Frame
import proofs.«161654_j68332929679679_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Mlp

open Cert.KernelIdeal Cert.KernelIdeal.Gen Idealize.ShloMosaic Idealize.ShloMosaic.TcCoe Idealize.ShloMosaic.ValueIdx Idealize.SL.Sem
open Idealize.ShloMosaic.Pipeline (Dat Cfg Window)

/-! ## A block product at an entry: a sum over 96 features -/

theorem lhs_row (i : S5000x96.Idx) (q : dot_S5000x96_S96x96_S5000x96_1_0_0_1_n_n.contr.Idx) :
    (dot_S5000x96_S96x96_S5000x96_1_0_0_1_n_n.lhsIdx i q 0).val = (i 0).val := by
  unfold DotDims.lhsIdx
  rw [dif_neg (show ¬(0 : Fin S5000x96.rank) ∈ dot_S5000x96_S96x96_S5000x96_1_0_0_1_n_n.lhsBatch by decide), dif_pos (show (0 : Fin S5000x96.rank) ∈ dot_S5000x96_S96x96_S5000x96_1_0_0_1_n_n.lhsNonContracting by decide)]
  rfl
theorem lhs_feat (i : S5000x96.Idx) (q : dot_S5000x96_S96x96_S5000x96_1_0_0_1_n_n.contr.Idx) :
    (dot_S5000x96_S96x96_S5000x96_1_0_0_1_n_n.lhsIdx i q 1).val = (q ⟨0, by decide⟩).val :=
  dot_S5000x96_S96x96_S5000x96_1_0_0_1_n_n.lhsIdx_val_of_single rfl i q
theorem rhs_feat (i : S5000x96.Idx) (q : dot_S5000x96_S96x96_S5000x96_1_0_0_1_n_n.contr.Idx) :
    (dot_S5000x96_S96x96_S5000x96_1_0_0_1_n_n.rhsIdx i q 0).val = (q ⟨0, by decide⟩).val :=
  dot_S5000x96_S96x96_S5000x96_1_0_0_1_n_n.rhsIdx_val_of_single rfl i q
theorem rhs_col (i : S5000x96.Idx) (q : dot_S5000x96_S96x96_S5000x96_1_0_0_1_n_n.contr.Idx) :
    (dot_S5000x96_S96x96_S5000x96_1_0_0_1_n_n.rhsIdx i q 1).val = (i 1).val := by
  unfold DotDims.rhsIdx
  rw [dif_neg (show ¬(1 : Fin S96x96.rank) ∈ dot_S5000x96_S96x96_S5000x96_1_0_0_1_n_n.rhsBatch by decide), dif_pos (show (1 : Fin S96x96.rank) ∈ dot_S5000x96_S96x96_S5000x96_1_0_0_1_n_n.rhsNonContracting by decide)]
  rfl

/-- Entry (p, q) of a block product into a zero accumulator is Σ_k a[p,k] · w[k,q]. -/
theorem product_apply (a : FVec Ideal S5000x96 .bf16) (w : FVec Ideal S96x96 .bf16) (p : Fin 5000) (q : Fin 96) :
    matmul (F := Ideal) dot_S5000x96_S96x96_S5000x96_1_0_0_1_n_n none a w (constant S5000x96 .f32 0x00000000#32) (ix2 p q)
      = ∑ k : Fin 96, a (ix2 p k) * w (ix2 k q) := by
  simp only [matmul]
  rw [Ideal.matmul_constant_zero_apply, ← Equiv.sum_comp (contrEquiv1 dot_S5000x96_S96x96_S5000x96_1_0_0_1_n_n 96 rfl rfl).symm]
  refine Finset.sum_congr rfl fun k _ => ?_
  have hk := contrEquiv1_symm_val dot_S5000x96_S96x96_S5000x96_1_0_0_1_n_n 96 rfl rfl k
  have el : dot_S5000x96_S96x96_S5000x96_1_0_0_1_n_n.lhsIdx (ix2 p q) ((contrEquiv1 dot_S5000x96_S96x96_S5000x96_1_0_0_1_n_n 96 rfl rfl).symm k) = ix2 p k := funext fun a => Fin.ext (by
    match a with
    | ⟨0, _⟩ => exact lhs_row _ _
    | ⟨1, _⟩ => exact (lhs_feat _ _).trans hk)
  have er : dot_S5000x96_S96x96_S5000x96_1_0_0_1_n_n.rhsIdx (ix2 p q) ((contrEquiv1 dot_S5000x96_S96x96_S5000x96_1_0_0_1_n_n 96 rfl rfl).symm k) = ix2 k q := funext fun a => Fin.ext (by
    match a with
    | ⟨0, _⟩ => exact (rhs_feat _ _).trans hk
    | ⟨1, _⟩ => exact rhs_col _ _)
  rw [el, er]

/-! ## The body's stored value at an entry -/

/-- What the body stores at entry (p, q): the second affine layer of the rectified first affine layer of the summed
    node features and aggregated messages of row p. -/
theorem stored_apply (x ag : Vec Ideal S5000x96 .f32) (w1 : Vec Ideal S96x96 .bf16) (b1 : Vec Ideal S1x96 .f32)
    (w2 : Vec Ideal S96x96 .bf16) (b2 : Vec Ideal S1x96 .f32) (p : Fin 5000) (q : Fin 96) :
    k1_pay1 (F := Ideal) x ag w1 b1 w2 b2 (ix2 p q)
      = (∑ k : Fin 96, max ((∑ l : Fin 96, (x (ix2 p l) + ag (ix2 p l)) * w1 (ix2 l k)) + b1 (ix2 (0 : Fin 1) k)) Spec.zeroW
            * w2 (ix2 k q)) + b2 (ix2 (0 : Fin 1) q) := by
  unfold k1_pay1
  simp only [addf_apply, shapeCast_self, product_apply, truncf_apply, maximumf_apply, broadcast_apply, broadcastTo_1b_ab_apply]
  rfl

/-- The stored block as one function of the block's entry. -/
theorem stored_eq (x ag : Vec Ideal S5000x96 .f32) (w1 : Vec Ideal S96x96 .bf16) (b1 : Vec Ideal S1x96 .f32)
    (w2 : Vec Ideal S96x96 .bf16) (b2 : Vec Ideal S1x96 .f32) :
    k1_pay1 (F := Ideal) x ag w1 b1 w2 b2
      = fun i => (∑ k : Fin 96, max ((∑ l : Fin 96, (x (ix2 (i 0) l) + ag (ix2 (i 0) l)) * w1 (ix2 l k)) + b1 (ix2 (0 : Fin 1) k)) Spec.zeroW
            * w2 (ix2 k (i 1))) + b2 (ix2 (0 : Fin 1) (i 1)) := by
  funext i
  obtain ⟨p, q, rfl⟩ : ∃ (p : Fin 5000) (q : Fin 96), i = ix2 p q := ⟨i 0, i 1, eq_ix2 i⟩
  exact stored_apply x ag w1 b1 w2 b2 p q

/-! ## From blocks to the array -/

section Region

variable (V : (c : Dev nD) → (b : Ref sig .tc) → Buf (Elt Ideal) ((c : Thread nD τ).loc b))

/-- The arrays the region finds, at their literal types: node features, aggregated messages, the two weight matrices
    and the two bias rows. -/
abbrev nodes (c : Dev nD) : Spec.Mat 50000 96 := V c main_arg0
abbrev aggr (c : Dev nD) : Spec.Mat 50000 96 := V c main_v16
abbrev weight1 (c : Dev nD) : Spec.Mat 96 96 := V c main_v17
abbrev bias1 (c : Dev nD) : Spec.Mat 1 96 := V c main_v19
abbrev weight2 (c : Dev nD) : Spec.Mat 96 96 := V c main_v18
abbrev bias2 (c : Dev nD) : Spec.Mat 1 96 := V c main_v20

theorem origin : (![0, 0] : Fin 2 → Nat) = fun _ => 0 := funext fun a => by fin_cases a <;> rfl

/-- The printed index maps over the 10 grid points: the two row-blocked inputs and the output sit at block row `t`, the
    weight matrices and bias rows at block (0, 0). -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What grid point `t` writes back is block `t` of `Spec.mlp` of the arrays as the region finds them. -/
theorem flushed_eq (c : Dev nD) (t : Fin cfg1.N) :
    (dat1 V c).flushed 6 t = ((cfg1.win 6).blk t).view.read (Elt Ideal)
      (Spec.mlp (nodes V c) (aggr V c) (weight1 V c) (bias1 V c) (weight2 V c) (bias2 V c)) := by
  show (cfg1.win 6).cut (grid1.coords t) ((dat1 V c).after 6 t) = _
  rw [after1_6]
  unfold out1_6
  rw [View.canon_unit_zero origin]
  simp only [View.ld_unit_zero (S := S5000x96) origin, View.ld_unit_zero (S := S96x96) origin, View.ld_unit_zero (S := S1x96) origin]
  obtain ⟨e00, e01, e10, e11, e20, e21, e30, e31, e40, e41, e50, e51, e60, e61⟩ := block_index t
  funext j
  refine (congrFun (stored_eq (iblk1 V c 0 t) (iblk1 V c 1 t) (iblk1 V c 2 t) (iblk1 V c 3 t) (iblk1 V c 4 t) (iblk1 V c 5 t)) j).trans ?_
  have hx : ∀ l : Fin 96, ((cfg1.win 0).blk t).view.emb (ix2 (j 0) l) = ix2 ((((cfg1.win 6).blk t).view.emb j) 0) l := by
    intro l; funext a; apply Fin.ext
    match a with
    | ⟨0, _⟩ => show win1_0.index t (0 : Fin 2) * 5000 + 1 * (j 0).val = win1_6.index t (0 : Fin 2) * 5000 + 1 * (j 0).val; omega
    | ⟨1, _⟩ => show win1_0.index t (1 : Fin 2) * 96 + 1 * l.val = l.val; omega
  have hag : ∀ l : Fin 96, ((cfg1.win 1).blk t).view.emb (ix2 (j 0) l) = ix2 ((((cfg1.win 6).blk t).view.emb j) 0) l := by
    intro l; funext a; apply Fin.ext
    match a with
    | ⟨0, _⟩ => show win1_1.index t (0 : Fin 2) * 5000 + 1 * (j 0).val = win1_6.index t (0 : Fin 2) * 5000 + 1 * (j 0).val; omega
    | ⟨1, _⟩ => show win1_1.index t (1 : Fin 2) * 96 + 1 * l.val = l.val; omega
  have hw1 : ∀ l k : Fin 96, ((cfg1.win 2).blk t).view.emb (ix2 l k) = ix2 l k := by
    intro l k; funext a; apply Fin.ext
    match a with
    | ⟨0, _⟩ => show win1_2.index t (0 : Fin 2) * 96 + 1 * l.val = l.val; omega
    | ⟨1, _⟩ => show win1_2.index t (1 : Fin 2) * 96 + 1 * k.val = k.val; omega
  have hb1 : ∀ k : Fin 96, ((cfg1.win 3).blk t).view.emb (ix2 (0 : Fin 1) k) = ix2 (0 : Fin 1) k := by
    intro k; funext a; apply Fin.ext
    match a with
    | ⟨0, _⟩ => show win1_3.index t (0 : Fin 2) * 1 + 1 * 0 = 0; omega
    | ⟨1, _⟩ => show win1_3.index t (1 : Fin 2) * 96 + 1 * k.val = k.val; omega
  have hw2 : ∀ k : Fin 96, ((cfg1.win 4).blk t).view.emb (ix2 k (j 1)) = ix2 k ((((cfg1.win 6).blk t).view.emb j) 1) := by
    intro k; funext a; apply Fin.ext
    match a with
    | ⟨0, _⟩ => show win1_4.index t (0 : Fin 2) * 96 + 1 * k.val = k.val; omega
    | ⟨1, _⟩ => show win1_4.index t (1 : Fin 2) * 96 + 1 * (j 1).val = win1_6.index t (1 : Fin 2) * 96 + 1 * (j 1).val; omega
  have hb2 : ((cfg1.win 5).blk t).view.emb (ix2 (0 : Fin 1) (j 1)) = ix2 (0 : Fin 1) ((((cfg1.win 6).blk t).view.emb j) 1) := by
    funext a; apply Fin.ext
    match a with
    | ⟨0, _⟩ => show win1_5.index t (0 : Fin 2) * 1 + 1 * 0 = 0; omega
    | ⟨1, _⟩ => show win1_5.index t (1 : Fin 2) * 96 + 1 * (j 1).val = win1_6.index t (1 : Fin 2) * 96 + 1 * (j 1).val; omega
  show (∑ k : Fin 96, max ((∑ l : Fin 96, (nodes V c (((cfg1.win 0).blk t).view.emb (ix2 (j 0) l)) + aggr V c (((cfg1.win 1).blk t).view.emb (ix2 (j 0) l)))
            * weight1 V c (((cfg1.win 2).blk t).view.emb (ix2 l k))) + bias1 V c (((cfg1.win 3).blk t).view.emb (ix2 (0 : Fin 1) k))) Spec.zeroW
          * weight2 V c (((cfg1.win 4).blk t).view.emb (ix2 k (j 1)))) + bias2 V c (((cfg1.win 5).blk t).view.emb (ix2 (0 : Fin 1) (j 1)))
      = Spec.mlp (nodes V c) (aggr V c) (weight1 V c) (bias1 V c) (weight2 V c) (bias2 V c) (((cfg1.win 6).blk t).view.emb j)
  rw [hb2]
  simp only [hx, hag, hw1, hb1, hw2]
  rfl

/-- An index of the result array lies in point `t`'s block iff each coordinate lies in the block's range on its axis. -/
theorem mem_block (t : Fin cfg1.N) (i : S50000x96.Idx) :
    i ∈ ((cfg1.win 6).blk t).view.set ↔ ∀ a : Fin 2, win1_6.index t a * S5000x96.size a ≤ (i a).val ∧ (i a).val < win1_6.index t a * S5000x96.size a + S5000x96.size a := by
  show i ∈ ((View.whole main_v21).slice (win1_6.rect t)).set ↔ _
  rw [View.set_slice_whole, Rect.mem_set_unit]
  exact Iff.rfl

/-- Every entry of the result array is written back by some point: row r by point r / 5000. -/
theorem cover (i : S50000x96.Idx) :
    ∃ t : Fin cfg1.N, (cfg1.win 6).flush t = true ∧ i ∈ ((cfg1.win 6).blk t).view.set := by
  have hi0 : (i 0).val < 50000 := (i 0).isLt
  have hi1 : (i 1).val < 96 := (i 1).isLt
  have hN : (i 0).val / 5000 < cfg1.N := by show _ < grid1.N; rw [N_1]; omega
  obtain ⟨-, -, -, -, -, -, -, -, -, -, -, -, e60, e61⟩ := block_index ⟨(i 0).val / 5000, hN⟩
  refine ⟨⟨(i 0).val / 5000, hN⟩, flush1_6 _, ?_⟩
  rw [mem_block]
  intro a
  match a with
  | ⟨0, _⟩ =>
    show win1_6.index ⟨(i 0).val / 5000, hN⟩ (0 : Fin 2) * 5000 ≤ (i 0).val ∧ (i 0).val < win1_6.index ⟨(i 0).val / 5000, hN⟩ (0 : Fin 2) * 5000 + 5000
    rw [e60]; show (i 0).val / 5000 * 5000 ≤ (i 0).val ∧ (i 0).val < (i 0).val / 5000 * 5000 + 5000; omega
  | ⟨1, _⟩ =>
    show win1_6.index ⟨(i 0).val / 5000, hN⟩ (1 : Fin 2) * 96 ≤ (i 1).val ∧ (i 1).val < win1_6.index ⟨(i 0).val / 5000, hN⟩ (1 : Fin 2) * 96 + 96
    rw [e61]; omega

/-- THE ARRAY the region leaves: `Spec.mlp` of the arrays it found. -/
theorem final (c : Dev nD) :
    (dat1 V c).arrAt 6 cfg1.N = Spec.mlp (nodes V c) (aggr V c) (weight1 V c) (bias1 V c) (weight2 V c) (bias2 V c) :=
  (dat1 V c).arrAt_eq_of_cover 6 _ (fun t _ => flushed_eq V c t) cover

end Region

end Cert.KernelIdeal.Mlp

end
-- ==== Proof.Norm.lean ====
/-
  The third pallas_call (normalisation, affine map, rectifier), read as a value. Entry (p, q) of a grid point's block
  depends on entry (p, q) of the block of pre-normalisation features and on column q of the four 1 × 96 rows (mean,
  variance, scale, shift), each fetched whole. The 10 row blocks of 5000 rows tile the 50000 rows, so the array the
  region leaves IS `Spec.bnorm` of the arrays it found.
-/
import proofs.«161654_j68332929679679_1_alg».proof.Proof.Gen.KernelIdeal.Frame
import proofs.«161654_j68332929679679_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Norm

open Cert.KernelIdeal Cert.KernelIdeal.Gen Idealize.ShloMosaic Idealize.ShloMosaic.TcCoe Idealize.ShloMosaic.ValueIdx Idealize.SL.Sem
open Idealize.ShloMosaic.Pipeline (Dat Cfg Window)

/-! ## The body's stored value at an entry -/

/-- What the body stores at entry (p, q): the centred feature times the reciprocal root of the offset variance, scaled,
    shifted and rectified. The reciprocal root is taken on the 1 × 96 row before it is spread over the rows. -/
theorem stored_apply (var : Vec Ideal S1x96 .f32) (h : Vec Ideal S5000x96 .f32) (mean gamma beta : Vec Ideal S1x96 .f32)
    (p : Fin 5000) (q : Fin 96) :
    k2_pay1 (F := Ideal) var h mean gamma beta (ix2 p q)
      = max (((h (ix2 p q) - mean (ix2 (0 : Fin 1) q)) * Ideal.rsqrt (var (ix2 (0 : Fin 1) q) + Spec.epsW))
          * gamma (ix2 (0 : Fin 1) q) + beta (ix2 (0 : Fin 1) q)) Spec.zeroW := by
  unfold k2_pay1
  simp only [maximumf_apply, addf_apply, mulf_apply, subf_apply, broadcast_apply, shapeCast_self, broadcastTo_1b_ab_apply]
  rfl

/-- The stored block as one function of the block's entry. -/
theorem stored_eq (var : Vec Ideal S1x96 .f32) (h : Vec Ideal S5000x96 .f32) (mean gamma beta : Vec Ideal S1x96 .f32) :
    k2_pay1 (F := Ideal) var h mean gamma beta
      = fun i => max (((h i - mean (ix2 (0 : Fin 1) (i 1))) * Ideal.rsqrt (var (ix2 (0 : Fin 1) (i 1)) + Spec.epsW))
          * gamma (ix2 (0 : Fin 1) (i 1)) + beta (ix2 (0 : Fin 1) (i 1))) Spec.zeroW := by
  funext i
  obtain ⟨p, q, rfl⟩ : ∃ (p : Fin 5000) (q : Fin 96), i = ix2 p q := ⟨i 0, i 1, eq_ix2 i⟩
  exact stored_apply var h mean gamma beta p q

/-! ## From blocks to the array -/

section Region

variable (V : (c : Dev nD) → (b : Ref sig .tc) → Buf (Elt Ideal) ((c : Thread nD τ).loc b))

/-- The arrays the region finds, at their literal types: the pre-normalisation features and the four rows. -/
abbrev feats (c : Dev nD) : Spec.Mat 50000 96 := V c main_v21
abbrev meanRow (c : Dev nD) : Spec.Mat 1 96 := V c main_v32
abbrev varRow (c : Dev nD) : Spec.Mat 1 96 := V c main_v33
abbrev scaleRow (c : Dev nD) : Spec.Mat 1 96 := V c main_v34
abbrev shiftRow (c : Dev nD) : Spec.Mat 1 96 := V c main_v35

theorem origin : (![0, 0] : Fin 2 → Nat) = fun _ => 0 := funext fun a => by fin_cases a <;> rfl

/-- The printed index maps over the 10 grid points: the feature block and the output sit at block row `t`, the four rows
    at block (0, 0). -/
theorem block_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What grid point `t` writes back is block `t` of `Spec.bnorm` of the arrays as the region finds them. -/
theorem flushed_eq (c : Dev nD) (t : Fin cfg2.N) :
    (dat2 V c).flushed 5 t = ((cfg2.win 5).blk t).view.read (Elt Ideal)
      (Spec.bnorm (feats V c) (meanRow V c) (varRow V c) (scaleRow V c) (shiftRow V c)) := by
  show (cfg2.win 5).cut (grid2.coords t) ((dat2 V c).after 5 t) = _
  rw [after2_5]
  unfold out2_5
  rw [View.canon_unit_zero origin]
  simp only [View.ld_unit_zero (S := S1x96) origin, View.ld_unit_zero (S := S5000x96) origin]
  obtain ⟨e00, e01, e10, e11, e20, e21, e30, e31, e40, e41, e50, e51⟩ := block_index t
  funext j
  refine (congrFun (stored_eq (iblk2 V c 2 t) (iblk2 V c 0 t) (iblk2 V c 1 t) (iblk2 V c 3 t) (iblk2 V c 4 t)) j).trans ?_
  have h0 : ((cfg2.win 0).blk t).view.emb j = ((cfg2.win 5).blk t).view.emb j := by
    funext a; apply Fin.ext
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 96 + 1 * (j 1).val = win2_5.index t (1 : Fin 2) * 96 + 1 * (j 1).val; omega
  have h1 : ((cfg2.win 1).blk t).view.emb (ix2 (0 : Fin 1) (j 1)) = ix2 (0 : Fin 1) ((((cfg2.win 5).blk t).view.emb j) 1) := by
    funext a; apply Fin.ext
    match a with
    | ⟨0, _⟩ => show win2_1.index t (0 : Fin 2) * 1 + 1 * 0 = 0; omega
    | ⟨1, _⟩ => show win2_1.index t (1 : Fin 2) * 96 + 1 * (j 1).val = win2_5.index t (1 : Fin 2) * 96 + 1 * (j 1).val; omega
  have h2 : ((cfg2.win 2).blk t).view.emb (ix2 (0 : Fin 1) (j 1)) = ix2 (0 : Fin 1) ((((cfg2.win 5).blk t).view.emb j) 1) := by
    funext a; apply Fin.ext
    match a with
    | ⟨0, _⟩ => show win2_2.index t (0 : Fin 2) * 1 + 1 * 0 = 0; omega
    | ⟨1, _⟩ => show win2_2.index t (1 : Fin 2) * 96 + 1 * (j 1).val = win2_5.index t (1 : Fin 2) * 96 + 1 * (j 1).val; omega
  have h3 : ((cfg2.win 3).blk t).view.emb (ix2 (0 : Fin 1) (j 1)) = ix2 (0 : Fin 1) ((((cfg2.win 5).blk t).view.emb j) 1) := by
    funext a; apply Fin.ext
    match a with
    | ⟨0, _⟩ => show win2_3.index t (0 : Fin 2) * 1 + 1 * 0 = 0; omega
    | ⟨1, _⟩ => show win2_3.index t (1 : Fin 2) * 96 + 1 * (j 1).val = win2_5.index t (1 : Fin 2) * 96 + 1 * (j 1).val; omega
  have h4 : ((cfg2.win 4).blk t).view.emb (ix2 (0 : Fin 1) (j 1)) = ix2 (0 : Fin 1) ((((cfg2.win 5).blk t).view.emb j) 1) := by
    funext a; apply Fin.ext
    match a with
    | ⟨0, _⟩ => show win2_4.index t (0 : Fin 2) * 1 + 1 * 0 = 0; omega
    | ⟨1, _⟩ => show win2_4.index t (1 : Fin 2) * 96 + 1 * (j 1).val = win2_5.index t (1 : Fin 2) * 96 + 1 * (j 1).val; omega
  show max (((feats V c (((cfg2.win 0).blk t).view.emb j) - meanRow V c (((cfg2.win 1).blk t).view.emb (ix2 (0 : Fin 1) (j 1))))
          * Ideal.rsqrt (varRow V c (((cfg2.win 2).blk t).view.emb (ix2 (0 : Fin 1) (j 1))) + Spec.epsW))
        * scaleRow V c (((cfg2.win 3).blk t).view.emb (ix2 (0 : Fin 1) (j 1)))
        + shiftRow V c (((cfg2.win 4).blk t).view.emb (ix2 (0 : Fin 1) (j 1)))) Spec.zeroW
      = Spec.bnorm (feats V c) (meanRow V c) (varRow V c) (scaleRow V c) (shiftRow V c) (((cfg2.win 5).blk t).view.emb j)
  rw [h0, h1, h2, h3, h4]
  rfl

/-- An index of the result array lies in point `t`'s block iff each coordinate lies in the block's range on its axis. -/
theorem mem_block (t : Fin cfg2.N) (i : S50000x96.Idx) :
    i ∈ ((cfg2.win 5).blk t).view.set ↔ ∀ a : Fin 2, win2_5.index t a * S5000x96.size a ≤ (i a).val ∧ (i a).val < win2_5.index t a * S5000x96.size a + S5000x96.size a := by
  show i ∈ ((View.whole main_v36).slice (win2_5.rect t)).set ↔ _
  rw [View.set_slice_whole, Rect.mem_set_unit]
  exact Iff.rfl

/-- Every entry of the result array is written back by some point: row r by point r / 5000. -/
theorem cover (i : S50000x96.Idx) :
    ∃ t : Fin cfg2.N, (cfg2.win 5).flush t = true ∧ i ∈ ((cfg2.win 5).blk t).view.set := by
  have hi0 : (i 0).val < 50000 := (i 0).isLt
  have hi1 : (i 1).val < 96 := (i 1).isLt
  have hN : (i 0).val / 5000 < cfg2.N := by show _ < grid2.N; rw [N_2]; omega
  obtain ⟨-, -, -, -, -, -, -, -, -, -, e50, e51⟩ := block_index ⟨(i 0).val / 5000, hN⟩
  refine ⟨⟨(i 0).val / 5000, hN⟩, flush2_5 _, ?_⟩
  rw [mem_block]
  intro a
  match a with
  | ⟨0, _⟩ =>
    show win2_5.index ⟨(i 0).val / 5000, hN⟩ (0 : Fin 2) * 5000 ≤ (i 0).val ∧ (i 0).val < win2_5.index ⟨(i 0).val / 5000, hN⟩ (0 : Fin 2) * 5000 + 5000
    rw [e50]; show (i 0).val / 5000 * 5000 ≤ (i 0).val ∧ (i 0).val < (i 0).val / 5000 * 5000 + 5000; omega
  | ⟨1, _⟩ =>
    show win2_5.index ⟨(i 0).val / 5000, hN⟩ (1 : Fin 2) * 96 ≤ (i 1).val ∧ (i 1).val < win2_5.index ⟨(i 0).val / 5000, hN⟩ (1 : Fin 2) * 96 + 96
    rw [e51]; omega

/-- THE ARRAY the region leaves: `Spec.bnorm` of the arrays it found. -/
theorem final (c : Dev nD) :
    (dat2 V c).arrAt 5 cfg2.N = Spec.bnorm (feats V c) (meanRow V c) (varRow V c) (scaleRow V c) (shiftRow V c) :=
  (dat2 V c).arrAt_eq_of_cover 5 _ (fun t _ => flushed_eq V c t) cover

end Region

end Cert.KernelIdeal.Norm

end
-- ==== Proof.RefStages.lean ====
/-
  The reference's run, read stage by stage at the extended reals: its edge messages, its node network and its
  normalisation are the three functions of `Spec`, index by index. The only algebra used is that a sum of three terms
  may be bracketed either way: the reference adds the bias to (source row + projection), the specification adds
  (projection + bias) to the source row. The small operands (weights, bias and statistics rows) enter through what they
  hold at an index, so that another program's copies of them, differently laid out, can be put in their place.
-/
import proofs.«161654_j68332929679679_1_alg».proof.Defs
import proofs.«161654_j68332929679679_1_alg».proof.Proof.Gen.ReferenceIdeal.Read
import proofs.«161654_j68332929679679_1_alg».proof.Proof.Spec

noncomputable section

namespace Cert.ReferenceIdeal.Stages

open Cert.ReferenceIdeal Cert.ReferenceIdeal.Read Idealize.ShloMosaic Idealize.ShloMosaic.TcCoe Idealize.ShloMosaic.ValueIdx Idealize.SL.Sem

/-- The rectified per-edge sum is `Spec.message` of the gathered source rows, the edge attributes, and any projection
    matrix and bias row that hold the reference's weights. -/
theorem message_stage (x0 : (⟨S50000x96, .f32⟩ : BufTy).Contents (Elt Ideal)) (x1 : (⟨S2x800000, .i32⟩ : BufTy).Contents (Elt Ideal))
    (x2 : (⟨S800000x32, .f32⟩ : BufTy).Contents (Elt Ideal)) (x3 : (⟨S32x96, .f32⟩ : BufTy).Contents (Elt Ideal))
    (x4 : (⟨S96, .f32⟩ : BufTy).Contents (Elt Ideal))
    (we : Spec.Mat 32 96) (be : Spec.Mat 1 96)
    (hwe : ∀ i, we i = x3 i) (hbe : ∀ q : Fin 96, be (ix2 (0 : Fin 1) q) = x4 (ix1 q)) :
    val_main_v16 (F := Ideal) x0 x1 x2 x3 x4 = Spec.message (val_main_v10 (F := Ideal) x0 x1) x2 we be := by
  funext i
  obtain ⟨e, q, rfl⟩ : ∃ (e : Fin 800000) (q : Fin 96), i = ix2 e q := ⟨i 0, i 1, eq_ix2 i⟩
  rw [val_main_v16_apply, val_main_v15_apply, val_main_v12_apply, val_main_v11_apply, val_main_v14_apply, val_main_v13_apply,
    val_main_call0_v0_apply, val_main_call0_cst_apply]
  have el : ∀ k : Fin 32, lidx_main_v11 (ix2 e q) k = ix2 e k := fun k => funext fun a => Fin.ext (by
    match a with
    | ⟨0, _⟩ => rfl
    | ⟨1, _⟩ => rfl)
  have er : ∀ k : Fin 32, ridx_main_v11 (ix2 e q) k = ix2 k q := fun k => funext fun a => Fin.ext (by
    match a with
    | ⟨0, _⟩ => rfl
    | ⟨1, _⟩ => rfl)
  have eb : idx_main_v13 (idx_main_v14 (ix2 e q)) = ix1 q := funext fun a => Fin.ext (by
    match a with
    | ⟨0, _⟩ => rfl)
  simp only [el, er, eb]
  show max ((val_main_v10 (F := Ideal) x0 x1 (ix2 e q) + ∑ k : Fin 32, x2 (ix2 e k) * x3 (ix2 k q)) + x4 (ix1 q)) (Ideal.ofBits .f32 0x00000000#32)
      = max (val_main_v10 (F := Ideal) x0 x1 (ix2 e q) + ((∑ k : Fin 32, x2 (ix2 e k) * we (ix2 k q)) + be (ix2 (0 : Fin 1) q))) Spec.zeroW
  simp only [hwe, hbe]
  rw [add_assoc]

/-- The node network's output is `Spec.mlp` of the node features, any array holding the aggregated messages, and any
    weight matrices and bias rows that hold the reference's. -/
theorem mlp_stage (x0 : (⟨S50000x96, .f32⟩ : BufTy).Contents (Elt Ideal)) (x1 : (⟨S2x800000, .i32⟩ : BufTy).Contents (Elt Ideal))
    (x2 : (⟨S800000x32, .f32⟩ : BufTy).Contents (Elt Ideal)) (x3 : (⟨S32x96, .f32⟩ : BufTy).Contents (Elt Ideal))
    (x4 : (⟨S96, .f32⟩ : BufTy).Contents (Elt Ideal)) (x5 : (⟨S96x96, .f32⟩ : BufTy).Contents (Elt Ideal))
    (x6 : (⟨S96, .f32⟩ : BufTy).Contents (Elt Ideal)) (x7 : (⟨S96x96, .f32⟩ : BufTy).Contents (Elt Ideal))
    (x8 : (⟨S96, .f32⟩ : BufTy).Contents (Elt Ideal))
    (ag : Spec.Mat 50000 96) (w1 : Spec.Mat 96 96) (b1 : Spec.Mat 1 96) (w2 : Spec.Mat 96 96) (b2 : Spec.Mat 1 96)
    (hag : ∀ i, ag i = val_main_v19 (F := Ideal) x0 x1 x2 x3 x4 i)
    (hw1 : ∀ i, w1 i = x5 i) (hb1 : ∀ q : Fin 96, b1 (ix2 (0 : Fin 1) q) = x6 (ix1 q))
    (hw2 : ∀ i, w2 i = x7 i) (hb2 : ∀ q : Fin 96, b2 (ix2 (0 : Fin 1) q) = x8 (ix1 q)) :
    val_main_v29 (F := Ideal) x0 x1 x2 x3 x4 x5 x6 x7 x8 = Spec.mlp x0 ag w1 b1 w2 b2 := by
  funext i
  obtain ⟨n, q, rfl⟩ : ∃ (n : Fin 50000) (q : Fin 96), i = ix2 n q := ⟨i 0, i 1, eq_ix2 i⟩
  rw [val_main_v29_apply, val_main_v26_apply, val_main_v28_apply, val_main_v27_apply]
  have e26l : ∀ k : Fin 96, lidx_main_v26 (ix2 n q) k = ix2 n k := fun k => funext fun a => Fin.ext (by
    match a with
    | ⟨0, _⟩ => rfl
    | ⟨1, _⟩ => rfl)
  have e26r : ∀ k : Fin 96, ridx_main_v26 (ix2 n q) k = ix2 k q := fun k => funext fun a => Fin.ext (by
    match a with
    | ⟨0, _⟩ => rfl
    | ⟨1, _⟩ => rfl)
  have eb2 : idx_main_v27 (idx_main_v28 (ix2 n q)) = ix1 q := funext fun a => Fin.ext (by
    match a with
    | ⟨0, _⟩ => rfl)
  simp only [e26l, e26r, eb2]
  have hidden_eq : ∀ k : Fin 96, val_main_v25 (F := Ideal) x0 x1 x2 x3 x4 x5 x6 (ix2 n k)
      = max ((∑ l : Fin 96, (x0 (ix2 n l) + val_main_v19 (F := Ideal) x0 x1 x2 x3 x4 (ix2 n l)) * x5 (ix2 l k)) + x6 (ix1 k))
          (Ideal.ofBits .f32 0x00000000#32) := by
    intro k
    rw [val_main_v25_apply, val_main_v24_apply, val_main_v21_apply, val_main_v23_apply, val_main_v22_apply,
      val_main_call1_v0_apply, val_main_call1_cst_apply]
    have e21l : ∀ l : Fin 96, lidx_main_v21 (ix2 n k) l = ix2 n l := fun l => funext fun a => Fin.ext (by
      match a with
      | ⟨0, _⟩ => rfl
      | ⟨1, _⟩ => rfl)
    have e21r : ∀ l : Fin 96, ridx_main_v21 (ix2 n k) l = ix2 l k := fun l => funext fun a => Fin.ext (by
      match a with
      | ⟨0, _⟩ => rfl
      | ⟨1, _⟩ => rfl)
    have eb1 : idx_main_v22 (idx_main_v23 (ix2 n k)) = ix1 k := funext fun a => Fin.ext (by
      match a with
      | ⟨0, _⟩ => rfl)
    simp only [e21l, e21r, eb1, val_main_v20_apply]
    rfl
  simp only [hidden_eq]
  show (∑ k : Fin 96, max ((∑ l : Fin 96, (x0 (ix2 n l) + val_main_v19 (F := Ideal) x0 x1 x2 x3 x4 (ix2 n l)) * x5 (ix2 l k)) + x6 (ix1 k))
          (Ideal.ofBits .f32 0x00000000#32) * x7 (ix2 k q)) + x8 (ix1 q)
      = (∑ k : Fin 96, max ((∑ l : Fin 96, (x0 (ix2 n l) + ag (ix2 n l)) * w1 (ix2 l k)) + b1 (ix2 (0 : Fin 1) k)) Spec.zeroW
          * w2 (ix2 k q)) + b2 (ix2 (0 : Fin 1) q)
  simp only [hag, hw1, hb1, hw2, hb2]

/-- The final stage is `Spec.bnorm` of the node network's output and any four rows that hold the reference's column
    mean, column variance, scale and shift. -/
theorem bnorm_stage (x0 : (⟨S50000x96, .f32⟩ : BufTy).Contents (Elt Ideal)) (x1 : (⟨S2x800000, .i32⟩ : BufTy).Contents (Elt Ideal))
    (x2 : (⟨S800000x32, .f32⟩ : BufTy).Contents (Elt Ideal)) (x3 : (⟨S32x96, .f32⟩ : BufTy).Contents (Elt Ideal))
    (x4 : (⟨S96, .f32⟩ : BufTy).Contents (Elt Ideal)) (x5 : (⟨S96x96, .f32⟩ : BufTy).Contents (Elt Ideal))
    (x6 : (⟨S96, .f32⟩ : BufTy).Contents (Elt Ideal)) (x7 : (⟨S96x96, .f32⟩ : BufTy).Contents (Elt Ideal))
    (x8 : (⟨S96, .f32⟩ : BufTy).Contents (Elt Ideal)) (x9 : (⟨S96, .f32⟩ : BufTy).Contents (Elt Ideal))
    (x10 : (⟨S96, .f32⟩ : BufTy).Contents (Elt Ideal))
    (mean var gamma beta : Spec.Mat 1 96)
    (hmean : ∀ q : Fin 96, mean (ix2 (0 : Fin 1) q) = val_main_v32 (F := Ideal) x0 x1 x2 x3 x4 x5 x6 x7 x8 (ix1 q))
    (hvar : ∀ q : Fin 96, var (ix2 (0 : Fin 1) q) = val_main_v39 (F := Ideal) x0 x1 x2 x3 x4 x5 x6 x7 x8 (ix1 q))
    (hgamma : ∀ q : Fin 96, gamma (ix2 (0 : Fin 1) q) = x9 (ix1 q))
    (hbeta : ∀ q : Fin 96, beta (ix2 (0 : Fin 1) q) = x10 (ix1 q)) :
    val_main_v55 (F := Ideal) x0 x1 x2 x3 x4 x5 x6 x7 x8 x9 x10
      = Spec.bnorm (val_main_v29 (F := Ideal) x0 x1 x2 x3 x4 x5 x6 x7 x8) mean var gamma beta := by
  funext i
  obtain ⟨n, q, rfl⟩ : ∃ (n : Fin 50000) (q : Fin 96), i = ix2 n q := ⟨i 0, i 1, eq_ix2 i⟩
  rw [val_main_v55_apply, val_main_v54_apply, val_main_v51_apply, val_main_v48_apply, val_main_v42_apply, val_main_v41_apply,
    val_main_v40_apply, val_main_v47_apply, val_main_v46_apply, val_main_v45_apply, val_main_v44_apply, val_main_v43_apply,
    val_main_cst_5_apply, val_main_v50_apply, val_main_v49_apply, val_main_v53_apply, val_main_v52_apply,
    val_main_call2_v0_apply, val_main_call2_cst_apply]
  have e1 : idx_main_v40 (idx_main_v41 (ix2 n q)) = ix1 q := funext fun a => Fin.ext (by
    match a with
    | ⟨0, _⟩ => rfl)
  have e2 : idx_main_v46 (idx_main_v47 (ix2 n q)) = ix1 q := funext fun a => Fin.ext (by
    match a with
    | ⟨0, _⟩ => rfl)
  have e3 : idx_main_v49 (idx_main_v50 (ix2 n q)) = ix1 q := funext fun a => Fin.ext (by
    match a with
    | ⟨0, _⟩ => rfl)
  have e4 : idx_main_v52 (idx_main_v53 (ix2 n q)) = ix1 q := funext fun a => Fin.ext (by
    match a with
    | ⟨0, _⟩ => rfl)
  simp only [e1, e2, e3, e4]
  show max (((val_main_v29 (F := Ideal) x0 x1 x2 x3 x4 x5 x6 x7 x8 (ix2 n q) - val_main_v32 (F := Ideal) x0 x1 x2 x3 x4 x5 x6 x7 x8 (ix1 q))
          * Ideal.rsqrt (val_main_v39 (F := Ideal) x0 x1 x2 x3 x4 x5 x6 x7 x8 (ix1 q) + Ideal.ofBits .f32 0x3727C5AC#32))
        * x9 (ix1 q) + x10 (ix1 q)) (Ideal.ofBits .f32 0x00000000#32)
      = max (((val_main_v29 (F := Ideal) x0 x1 x2 x3 x4 x5 x6 x7 x8 (ix2 n q) - mean (ix2 (0 : Fin 1) q))
          * Ideal.rsqrt (var (ix2 (0 : Fin 1) q) + Spec.epsW)) * gamma (ix2 (0 : Fin 1) q) + beta (ix2 (0 : Fin 1) q)) Spec.zeroW
  simp only [hmean, hvar, hgamma, hbeta]

end Cert.ReferenceIdeal.Stages

end
-- ==== Proof.KernelValue.lean ====
/-
  The idealized kernel's result, read back through its run. Between the launch and the return the buffers pass six
  boundaries: a stretch of host operations (index slices, the row gather, the weight casts), the edge-message region, a
  stretch (the scatter-add of messages into nodes, more weight casts), the node-network region, a stretch (column mean and
  variance), the normalisation region. At each region's exit its result array is the matching `Spec` function of what it
  found; each host stretch applies to those the very operations the reference applies, so every array met on the way is
  the reference's stage of the same name, and the result is the reference's last stage.
-/
import proofs.«161654_j68332929679679_1_alg».proof.Proof.Message
import proofs.«161654_j68332929679679_1_alg».proof.Proof.Mlp
import proofs.«161654_j68332929679679_1_alg».proof.Proof.Norm
import proofs.«161654_j68332929679679_1_alg».proof.Proof.RefStages
import Idealize.ShloMosaic.Lib.StableHlo.Run
import Idealize.ShloMosaic.Lib.ValueLayout

set_option maxRecDepth 16384

noncomputable section

namespace Cert.KernelIdeal.Fold

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-- The argument arrays as launched. -/
abbrev A0 (c : Dev nD) := m ((c.tc : Thread nD τ).loc main_arg0)
abbrev A1 (c : Dev nD) := m ((c.tc : Thread nD τ).loc main_arg1)
abbrev A2 (c : Dev nD) := m ((c.tc : Thread nD τ).loc main_arg2)
abbrev A3 (c : Dev nD) := m ((c.tc : Thread nD τ).loc main_arg3)
abbrev A4 (c : Dev nD) := m ((c.tc : Thread nD τ).loc main_arg4)
abbrev A5 (c : Dev nD) := m ((c.tc : Thread nD τ).loc main_arg5)
abbrev A6 (c : Dev nD) := m ((c.tc : Thread nD τ).loc main_arg6)
abbrev A7 (c : Dev nD) := m ((c.tc : Thread nD τ).loc main_arg7)
abbrev A8 (c : Dev nD) := m ((c.tc : Thread nD τ).loc main_arg8)
abbrev A9 (c : Dev nD) := m ((c.tc : Thread nD τ).loc main_arg9)
abbrev A10 (c : Dev nD) := m ((c.tc : Thread nD τ).loc main_arg10)

/-! ## What the edge-message region finds, and leaves -/

/-- The gathered source rows are the reference's gather of the same rows at the same (wrapped) indices. -/
theorem entry0_src (c : Dev nD) : V1 m ρ c main_v10 = Cert.ReferenceIdeal.Read.val_main_v10 (F := Ideal) (A0 m c) (A1 m c) := by
  show StableHlo.after hostOps0 (W0 m ρ c) (Proc.devRef .tc main_v10) = _
  after_results
  rfl

theorem entry0_attr (c : Dev nD) : V1 m ρ c main_arg2 = A2 m c := by
  show StableHlo.after hostOps0 (W0 m ρ c) (Proc.devRef .tc main_arg2) = _
  after_results

/-- The projection matrix the region finds is the launched one: the change of float format is the identity. -/
theorem entry0_proj (c : Dev nD) (i : S32x96.Idx) : Message.projMat (V1 m ρ) c i = A3 m c i := by
  show StableHlo.after hostOps0 (W0 m ρ c) (Proc.devRef .tc main_v11) i = _
  after_results
  all_goals rfl

/-- The bias row the region finds is the launched bias vector laid out as one row. -/
theorem entry0_bias (c : Dev nD) (q : Fin 96) : Message.biasRow (V1 m ρ) c (ix2 (0 : Fin 1) q) = A4 m c (ix1 q) := by
  show StableHlo.after hostOps0 (W0 m ρ c) (Proc.devRef .tc main_v12) (ix2 (0 : Fin 1) q) = _
  after_results
  exact shapeCast_a_1a_apply (A4 m c) shapeCasts_S96_S1x96 (0 : Fin 1) q

/-- At the region's exit the message array is the reference's rectified per-edge sum. -/
theorem exit0_msg (c : Dev nD) :
    W2 m ρ c (Proc.devRef .tc main_v13)
      = Cert.ReferenceIdeal.Read.val_main_v16 (F := Ideal) (A0 m c) (A1 m c) (A2 m c) (A3 m c) (A4 m c) := by
  refine (W2_arr m ρ c 4).trans ((Message.final (V1 m ρ) c).trans ?_)
  show Spec.message (V1 m ρ c main_v10) (V1 m ρ c main_arg2) (Message.projMat (V1 m ρ) c) (Message.biasRow (V1 m ρ) c) = _
  rw [entry0_src, entry0_attr]
  exact (Cert.ReferenceIdeal.Stages.message_stage (A0 m c) (A1 m c) (A2 m c) (A3 m c) (A4 m c) _ _
    (entry0_proj m ρ c) (entry0_bias m ρ c)).symm

/-! ## What the node-network region finds, and leaves -/

/-- Buffers that neither the first host stretch nor the edge-message region writes hold, at that region's exit, what
    they were launched with (the arguments) or what the first stretch computed (the target indices). -/
theorem exit0_arg0 (c : Dev nD) : W2 m ρ c (Proc.devRef .tc main_arg0) = A0 m c :=
  (W2_of_ne m ρ c main_arg0 (by decide)).trans (by
    show StableHlo.after hostOps0 (W0 m ρ c) (Proc.devRef .tc main_arg0) = _
    after_results)
theorem exit0_arg5 (c : Dev nD) : W2 m ρ c (Proc.devRef .tc main_arg5) = A5 m c :=
  (W2_of_ne m ρ c main_arg5 (by decide)).trans (by
    show StableHlo.after hostOps0 (W0 m ρ c) (Proc.devRef .tc main_arg5) = _
    after_results)
theorem exit0_arg6 (c : Dev nD) : W2 m ρ c (Proc.devRef .tc main_arg6) = A6 m c :=
  (W2_of_ne m ρ c main_arg6 (by decide)).trans (by
    show StableHlo.after hostOps0 (W0 m ρ c) (Proc.devRef .tc main_arg6) = _
    after_results)
theorem exit0_arg7 (c : Dev nD) : W2 m ρ c (Proc.devRef .tc main_arg7) = A7 m c :=
  (W2_of_ne m ρ c main_arg7 (by decide)).trans (by
    show StableHlo.after hostOps0 (W0 m ρ c) (Proc.devRef .tc main_arg7) = _
    after_results)
theorem exit0_arg8 (c : Dev nD) : W2 m ρ c (Proc.devRef .tc main_arg8) = A8 m c :=
  (W2_of_ne m ρ c main_arg8 (by decide)).trans (by
    show StableHlo.after hostOps0 (W0 m ρ c) (Proc.devRef .tc main_arg8) = _
    after_results)
theorem exit0_arg9 (c : Dev nD) : W2 m ρ c (Proc.devRef .tc main_arg9) = A9 m c :=
  (W2_of_ne m ρ c main_arg9 (by decide)).trans (by
    show StableHlo.after hostOps0 (W0 m ρ c) (Proc.devRef .tc main_arg9) = _
    after_results)
theorem exit0_arg10 (c : Dev nD) : W2 m ρ c (Proc.devRef .tc main_arg10) = A10 m c :=
  (W2_of_ne m ρ c main_arg10 (by decide)).trans (by
    show StableHlo.after hostOps0 (W0 m ρ c) (Proc.devRef .tc main_arg10) = _
    after_results)
/-- The target-node indices are the reference's: the second row of the index array. -/
theorem exit0_dst (c : Dev nD) : W2 m ρ c (Proc.devRef .tc main_v3) = Cert.ReferenceIdeal.Read.val_main_v3 (F := Ideal) (A1 m c) :=
  (W2_of_ne m ρ c main_v3 (by decide)).trans (by
    show StableHlo.after hostOps0 (W0 m ρ c) (Proc.devRef .tc main_v3) = _
    after_results
    rfl)

theorem entry1_nodes (c : Dev nD) : V3 m ρ c main_arg0 = A0 m c := by
  show StableHlo.after hostOps1 (W2 m ρ c) (Proc.devRef .tc main_arg0) = _
  after_results
  exact exit0_arg0 m ρ c

/-- The aggregated messages are the reference's: the same scatter-add, at the same target indices, of the same messages
    into the same zero array. -/
theorem entry1_aggr (c : Dev nD) :
    V3 m ρ c main_v16 = Cert.ReferenceIdeal.Read.val_main_v19 (F := Ideal) (A0 m c) (A1 m c) (A2 m c) (A3 m c) (A4 m c) := by
  show StableHlo.after hostOps1 (W2 m ρ c) (Proc.devRef .tc main_v16) = _
  after_results
  rw [exit0_msg, exit0_dst]
  rfl

theorem entry1_w1 (c : Dev nD) (i : S96x96.Idx) : Mlp.weight1 (V3 m ρ) c i = A5 m c i := by
  show StableHlo.after hostOps1 (W2 m ρ c) (Proc.devRef .tc main_v17) i = _
  after_results
  rw [exit0_arg5]
  all_goals rfl

theorem entry1_b1 (c : Dev nD) (q : Fin 96) : Mlp.bias1 (V3 m ρ) c (ix2 (0 : Fin 1) q) = A6 m c (ix1 q) := by
  show StableHlo.after hostOps1 (W2 m ρ c) (Proc.devRef .tc main_v19) (ix2 (0 : Fin 1) q) = _
  after_results
  rw [exit0_arg6]
  exact shapeCast_a_1a_apply (A6 m c) shapeCasts_S96_S1x96 (0 : Fin 1) q

theorem entry1_w2 (c : Dev nD) (i : S96x96.Idx) : Mlp.weight2 (V3 m ρ) c i = A7 m c i := by
  show StableHlo.after hostOps1 (W2 m ρ c) (Proc.devRef .tc main_v18) i = _
  after_results
  rw [exit0_arg7]
  all_goals rfl

theorem entry1_b2 (c : Dev nD) (q : Fin 96) : Mlp.bias2 (V3 m ρ) c (ix2 (0 : Fin 1) q) = A8 m c (ix1 q) := by
  show StableHlo.after hostOps1 (W2 m ρ c) (Proc.devRef .tc main_v20) (ix2 (0 : Fin 1) q) = _
  after_results
  rw [exit0_arg8]
  exact shapeCast_a_1a_apply (A8 m c) shapeCasts_S96_S1x96 (0 : Fin 1) q

/-- At the region's exit the feature array is the reference's node-network output. -/
theorem exit1_feats (c : Dev nD) :
    W4 m ρ c (Proc.devRef .tc main_v21)
      = Cert.ReferenceIdeal.Read.val_main_v29 (F := Ideal) (A0 m c) (A1 m c) (A2 m c) (A3 m c) (A4 m c) (A5 m c) (A6 m c) (A7 m c) (A8 m c) := by
  refine (W4_arr m ρ c 6).trans ((Mlp.final (V3 m ρ) c).trans ?_)
  show Spec.mlp (V3 m ρ c main_arg0) (Mlp.aggr (V3 m ρ) c) (Mlp.weight1 (V3 m ρ) c) (Mlp.bias1 (V3 m ρ) c)
      (Mlp.weight2 (V3 m ρ) c) (Mlp.bias2 (V3 m ρ) c) = _
  rw [entry1_nodes]
  exact (Cert.ReferenceIdeal.Stages.mlp_stage (A0 m c) (A1 m c) (A2 m c) (A3 m c) (A4 m c) (A5 m c) (A6 m c) (A7 m c) (A8 m c)
    _ _ _ _ _ (fun i => congrFun (entry1_aggr m ρ c) i) (entry1_w1 m ρ c) (entry1_b1 m ρ c) (entry1_w2 m ρ c) (entry1_b2 m ρ c)).symm

/-! ## What the normalisation region finds, and leaves -/

theorem exit1_arg9 (c : Dev nD) : W4 m ρ c (Proc.devRef .tc main_arg9) = A9 m c :=
  (W4_of_ne m ρ c main_arg9 (by decide)).trans (by
    show StableHlo.after hostOps1 (W2 m ρ c) (Proc.devRef .tc main_arg9) = _
    after_results
    exact exit0_arg9 m ρ c)
theorem exit1_arg10 (c : Dev nD) : W4 m ρ c (Proc.devRef .tc main_arg10) = A10 m c :=
  (W4_of_ne m ρ c main_arg10 (by decide)).trans (by
    show StableHlo.after hostOps1 (W2 m ρ c) (Proc.devRef .tc main_arg10) = _
    after_results
    exact exit0_arg10 m ρ c)

theorem entry2_feats (c : Dev nD) :
    V5 m ρ c main_v21
      = Cert.ReferenceIdeal.Read.val_main_v29 (F := Ideal) (A0 m c) (A1 m c) (A2 m c) (A3 m c) (A4 m c) (A5 m c) (A6 m c) (A7 m c) (A8 m c) := by
  show StableHlo.after hostOps2 (W4 m ρ c) (Proc.devRef .tc main_v21) = _
  after_results
  exact exit1_feats m ρ c

/-- The mean row is the reference's column mean laid out as one row: the same sum over the rows and the same division,
    of the same feature array. -/
theorem entry2_mean (c : Dev nD) (q : Fin 96) :
    Norm.meanRow (V5 m ρ) c (ix2 (0 : Fin 1) q)
      = Cert.ReferenceIdeal.Read.val_main_v32 (F := Ideal) (A0 m c) (A1 m c) (A2 m c) (A3 m c) (A4 m c) (A5 m c) (A6 m c) (A7 m c) (A8 m c) (ix1 q) := by
  show StableHlo.after hostOps2 (W4 m ρ c) (Proc.devRef .tc main_v32) (ix2 (0 : Fin 1) q) = _
  after_results
  rw [exit1_feats]
  exact shapeCast_a_1a_apply
    (Cert.ReferenceIdeal.Read.val_main_v32 (F := Ideal) (A0 m c) (A1 m c) (A2 m c) (A3 m c) (A4 m c) (A5 m c) (A6 m c) (A7 m c) (A8 m c))
    shapeCasts_S96_S1x96 (0 : Fin 1) q

/-- The variance row is the reference's column variance laid out as one row. -/
theorem entry2_var (c : Dev nD) (q : Fin 96) :
    Norm.varRow (V5 m ρ) c (ix2 (0 : Fin 1) q)
      = Cert.ReferenceIdeal.Read.val_main_v39 (F := Ideal) (A0 m c) (A1 m c) (A2 m c) (A3 m c) (A4 m c) (A5 m c) (A6 m c) (A7 m c) (A8 m c) (ix1 q) := by
  show StableHlo.after hostOps2 (W4 m ρ c) (Proc.devRef .tc main_v33) (ix2 (0 : Fin 1) q) = _
  after_results
  rw [exit1_feats]
  exact shapeCast_a_1a_apply
    (Cert.ReferenceIdeal.Read.val_main_v39 (F := Ideal) (A0 m c) (A1 m c) (A2 m c) (A3 m c) (A4 m c) (A5 m c) (A6 m c) (A7 m c) (A8 m c))
    shapeCasts_S96_S1x96 (0 : Fin 1) q

theorem entry2_scale (c : Dev nD) (q : Fin 96) : Norm.scaleRow (V5 m ρ) c (ix2 (0 : Fin 1) q) = A9 m c (ix1 q) := by
  show StableHlo.after hostOps2 (W4 m ρ c) (Proc.devRef .tc main_v34) (ix2 (0 : Fin 1) q) = _
  after_results
  rw [exit1_arg9]
  exact shapeCast_a_1a_apply (A9 m c) shapeCasts_S96_S1x96 (0 : Fin 1) q

theorem entry2_shift (c : Dev nD) (q : Fin 96) : Norm.shiftRow (V5 m ρ) c (ix2 (0 : Fin 1) q) = A10 m c (ix1 q) := by
  show StableHlo.after hostOps2 (W4 m ρ c) (Proc.devRef .tc main_v35) (ix2 (0 : Fin 1) q) = _
  after_results
  rw [exit1_arg10]
  exact shapeCast_a_1a_apply (A10 m c) shapeCasts_S96_S1x96 (0 : Fin 1) q

/-- THE RESULT: at the last boundary the result buffer holds the reference's last stage of the launched arguments. -/
theorem result_eq (c : Dev nD) :
    W6 m ρ c (Proc.devRef .tc main_v36)
      = Cert.ReferenceIdeal.Read.val_main_v55 (F := Ideal) (A0 m c) (A1 m c) (A2 m c) (A3 m c) (A4 m c) (A5 m c) (A6 m c) (A7 m c) (A8 m c) (A9 m c) (A10 m c) := by
  refine (W6_arr m ρ c 5).trans ((Norm.final (V5 m ρ) c).trans ?_)
  show Spec.bnorm (V5 m ρ c main_v21) (Norm.meanRow (V5 m ρ) c) (Norm.varRow (V5 m ρ) c) (Norm.scaleRow (V5 m ρ) c)
      (Norm.shiftRow (V5 m ρ) c) = _
  rw [entry2_feats]
  exact (Cert.ReferenceIdeal.Stages.bnorm_stage (A0 m c) (A1 m c) (A2 m c) (A3 m c) (A4 m c) (A5 m c) (A6 m c) (A7 m c) (A8 m c)
    (A9 m c) (A10 m c) _ _ _ _ (entry2_mean m ρ c) (entry2_var m ρ c) (entry2_scale m ρ c) (entry2_shift m ρ c)).symm

end Cert.KernelIdeal.Fold

end
-- ==== Proof.lean ====
/-
  A graph block (edge messages, scatter-add into nodes, a two-layer node network, column normalisation) computed by
  three pallas_calls among host operations, against the same block in plain array operations.

  Over the extended reals the two programs are one function of the arguments. Each pallas_call's result array is a
  whole-array function of the arrays it finds (Proof/Spec.lean; Proof/Message.lean, Proof/Mlp.lean, Proof/Norm.lean: a
  grid point's block is that function's restriction, and the row blocks tile the array). The reference's matching
  stages are the same functions (Proof/RefStages.lean): its matrix products are the same sums, its changes of float
  format are absent where the kernel's are the identity, and its per-edge sum (source row + projection) + bias is
  bracketed the other way, which addition on the extended reals allows without any finiteness. Between the
  pallas_calls both programs apply the same host operations (the row gather, the scatter-add, the column mean and
  variance) to equal arrays, so those are never opened (Proof/KernelValue.lean). The precondition is not used.

  The word-level kernel's frame and the idealized kernel's frame are the generated ones; the reference's frame is its
  generated run with the result dropped; the idealization rewrote nothing.
-/
import proofs.«161654_j68332929679679_1_alg».proof.Defs
import proofs.«161654_j68332929679679_1_alg».proof.Proof.Gen.Kernel
import proofs.«161654_j68332929679679_1_alg».proof.Proof.Gen.Kernel.Skeleton
import proofs.«161654_j68332929679679_1_alg».proof.Proof.Gen.Kernel.Launch
import proofs.«161654_j68332929679679_1_alg».proof.Proof.Gen.Kernel.Points
import proofs.«161654_j68332929679679_1_alg».proof.Proof.Gen.Kernel.Frame
import proofs.«161654_j68332929679679_1_alg».proof.Proof.Gen.KernelIdeal
import proofs.«161654_j68332929679679_1_alg».proof.Proof.Gen.KernelIdeal.Skeleton
import proofs.«161654_j68332929679679_1_alg».proof.Proof.Gen.KernelIdeal.Launch
import proofs.«161654_j68332929679679_1_alg».proof.Proof.Gen.KernelIdeal.Points
import proofs.«161654_j68332929679679_1_alg».proof.Proof.Gen.KernelIdeal.Frame
import proofs.«161654_j68332929679679_1_alg».proof.Proof.Gen.ReferenceIdeal
import proofs.«161654_j68332929679679_1_alg».proof.Proof.Gen.ReferenceIdeal.Run
import proofs.«161654_j68332929679679_1_alg».proof.Proof.Gen.ReferenceIdeal.Read
import proofs.«161654_j68332929679679_1_alg».proof.Proof.Gen.Pre_finite_inputs
import proofs.«161654_j68332929679679_1_alg».proof.Proof.KernelRun
import proofs.«161654_j68332929679679_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run ends with its arguments unchanged: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the result at the reference's last stage of the (agreeing) arguments: the kernel by
    its run read back through the three regions, the reference by its generated run. -/
theorem algebraic : Cert.algebraic_KernelIdeal_ReferenceIdeal := by
  intro m ρ m' ρ' _ hagree
  refine ⟨fun c => Cert.KernelIdeal.Gen.W6 m ρ c (Proc.devRef .tc Cert.KernelIdeal.main_v36),
    Cert.KernelIdeal.Run.run_named m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  refine (Cert.ReferenceIdeal.Read.val_main_v55_eq m' c).trans ?_
  rw [h0, h1, h2, h3, h4, h5, h6, h7, h8, h9, h10]
  exact (Cert.KernelIdeal.Fold.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
